-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S1024x8192 : Shape := ⟨2, ![1024, 8192]⟩
abbrev S64x1024 : Shape := ⟨2, ![64, 1024]⟩
abbrev S64x8192 : Shape := ⟨2, ![64, 8192]⟩
abbrev S8192 : Shape := ⟨1, ![8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S64x8192 : S_.BroadcastsInDim S64x8192 (![] : Fin 0 → Fin S64x8192.rank)
  reducesTo_S64x8192_S_d0_1 : S64x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S4096x8192 .f32) (main_arg1 : IVec S1024x8192 32) (main_arg2 : IVec S64x1024 32) (main_arg3 : FVec F S64x8192 .f32) (main_arg4 : FVec F S8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S64x8192 .f32 := Host.absf main_arg3
  let main_cst_0 : FVec F S_ .f32 := constant S_ .f32 0x7F800000#32
  let main_v5 : FVec F S64x8192 .f32 := broadcastInDim S64x8192 ![] bcast_S_S64x8192 main_cst_0
  let main_v6 : IVec S64x8192 1 := cmpf .olt main_v4 main_v5
  let main_c_1 : IVec S_ 1 := constantI S_ 1 1#1
  let main_v7 : IVec S_ 1 := (fun x v => Host.reduce IntOp.andi x v reducesTo_S64x8192_S_d0_1 h_S_) main_v6 main_c_1
  let main_v8 : IVec S_ 1 := andi main_v3 main_v7
  let main_v9 : FVec F S8192 .f32 := Host.absf main_arg4
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S4096x8192 : Shape := ⟨2, ![4096, 8192]⟩
abbrev S1024x8192 : Shape := ⟨2, ![1024, 8192]⟩
abbrev S64x1024 : Shape := ⟨2, ![64, 1024]⟩
abbrev S64x8192 : Shape := ⟨2, ![64, 8192]⟩
abbrev S8192 : Shape := ⟨1, ![8192]⟩
abbrev S8 : Shape := ⟨1, ![8]⟩
abbrev S_ : Shape := ⟨0, ![]⟩
abbrev S64x1024x1 : Shape := ⟨3, ![64, 1024, 1]⟩
abbrev S1x1x8 : Shape := ⟨3, ![1, 1, 8]⟩
abbrev S64x1024x8 : Shape := ⟨3, ![64, 1024, 8]⟩
abbrev S4096x64x128 : Shape := ⟨3, ![4096, 64, 128]⟩
abbrev S4096x64 : Shape := ⟨2, ![4096, 64]⟩
abbrev S1x8192 : Shape := ⟨2, ![1, 8192]⟩
abbrev S2048x1024 : Shape := ⟨2, ![2048, 1024]⟩
abbrev S128x512 : Shape := ⟨2, ![128, 512]⟩
abbrev S8x512 : Shape := ⟨2, ![8, 512]⟩
abbrev S2048x512 : Shape := ⟨2, ![2048, 512]⟩
abbrev S128x1x512 : Shape := ⟨3, ![128, 1, 512]⟩
abbrev S128x8x512 : Shape := ⟨3, ![128, 8, 512]⟩
abbrev S1024x512 : Shape := ⟨2, ![1024, 512]⟩
abbrev S8x1x512 : Shape := ⟨3, ![8, 1, 512]⟩
abbrev S8x128x512 : Shape := ⟨3, ![8, 128, 512]⟩

abbrev nBuf : Space → Nat
  | .hbm => 36
  | .vmem => 10
  | .smem => 0
  | _ => 0

abbrev bufTy : (tb : Table) → Fin (tcTables nBuf tb) → BufTy
  | .hbm, ⟨0, _⟩ => ⟨S4096x8192, .f32⟩
  | .hbm, ⟨1, _⟩ => ⟨S1024x8192, .i32⟩
  | .hbm, ⟨2, _⟩ => ⟨S64x1024, .i32⟩
  | .hbm, ⟨3, _⟩ => ⟨S64x8192, .f32⟩
  | .hbm, ⟨4, _⟩ => ⟨S8192, .f32⟩
  | .hbm, ⟨5, _⟩ => ⟨S4096x8192, .bf16⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S64x1024x1, .i32⟩
  | .hbm, ⟨14, _⟩ => ⟨S1x1x8, .i32⟩
  | .hbm, ⟨15, _⟩ => ⟨S64x1024x8, .i32⟩
  | .hbm, ⟨16, _⟩ => ⟨S64x1024x8, .i32⟩
  | .hbm, ⟨17, _⟩ => ⟨S64x1024x8, .i32⟩
  | .hbm, ⟨18, _⟩ => ⟨S_, .i32⟩
  | .hbm, ⟨19, _⟩ => ⟨S64x1024x8, .i32⟩
  | .hbm, ⟨20, _⟩ => ⟨S64x1024x8, .i32⟩
  | .hbm, ⟨21, _⟩ => ⟨S_, .i32⟩
  | .hbm, ⟨22, _⟩ => ⟨S64x1024x8, .i32⟩
  | .hbm, ⟨23, _⟩ => ⟨S64x1024x8, .i32⟩
  | .hbm, ⟨24, _⟩ => ⟨S64x8192, .i32⟩
  | .hbm, ⟨25, _⟩ => ⟨S64x8192, .f32⟩
  | .hbm, ⟨26, _⟩ => ⟨S64x8192, .f32⟩
  | .hbm, ⟨27, _⟩ => ⟨S4096x64x128, .bf16⟩
  | .hbm, ⟨28, _⟩ => ⟨S4096x64x128, .f32⟩
  | .hbm, ⟨29, _⟩ => ⟨S_, .f32⟩
  | .hbm, ⟨30, _⟩ => ⟨S4096x64, .f32⟩
  | .hbm, ⟨31, _⟩ => ⟨S4096x8192, .f32⟩
  | .hbm, ⟨32, _⟩ => ⟨S1x8192, .f32⟩
  | .hbm, ⟨33, _⟩ => ⟨S4096x8192, .f32⟩
  | .hbm, ⟨34, _⟩ => ⟨S4096x8192, .f32⟩
  | .hbm, ⟨35, _⟩ => ⟨S4096x8192, .f32⟩
  | .local _ .vmem, ⟨0, _⟩ => ⟨S2048x1024, .bf16⟩
  | .local _ .vmem, ⟨1, _⟩ => ⟨S2048x1024, .bf16⟩
  | .local _ .vmem, ⟨2, _⟩ => ⟨S128x512, .i32⟩
  | .local _ .vmem, ⟨3, _⟩ => ⟨S128x512, .i32⟩
  | .local _ .vmem, ⟨4, _⟩ => ⟨S8x512, .f32⟩
  | .local _ .vmem, ⟨5, _⟩ => ⟨S8x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 16, 8], ![false, false, false]⟩

def k0_cond2 (i : grid0.Coords) : BitVec 1 :=
  let arg2 : BitVec 32 := BitVec.ofNat 32 (i 2).val
  let c7_i32 : BitVec 32 := 7#32
  let v62 : BitVec 1 := Scalar.cmpi .eq arg2 c7_i32
  let v63 : BitVec 32 := Scalar.extui v62
  let c0_i32_18 : BitVec 32 := 0#32
  let v64 : BitVec 1 := Scalar.cmpi .ne v63 c0_i32_18
  v64

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  bcast_S_S8 : S_.BroadcastsInDim S8 (![] : Fin 0 → Fin S8.rank)
  bcast_S64x1024_S64x1024x1_0_1 : S64x1024.BroadcastsInDim S64x1024x1 (![0, 1] : Fin 2 → Fin S64x1024x1.rank)
  bcast_S8_S1x1x8_2 : S8.BroadcastsInDim S1x1x8 (![2] : Fin 1 → Fin S1x1x8.rank)
  bcast_S64x1024x1_S64x1024x8_0_1_2 : S64x1024x1.BroadcastsInDim S64x1024x8 (![0, 1, 2] : Fin 3 → Fin S64x1024x8.rank)
  bcast_S1x1x8_S64x1024x8_0_1_2 : S1x1x8.BroadcastsInDim S64x1024x8 (![0, 1, 2] : Fin 3 → Fin S64x1024x8.rank)
  bcast_S_S64x1024x8 : S_.BroadcastsInDim S64x1024x8 (![] : Fin 0 → Fin S64x1024x8.rank)
  shapeCasts_S64x1024x8_S64x8192 : S64x1024x8.ShapeCasts S64x8192
  shapeCasts_S4096x8192_S4096x64x128 : S4096x8192.ShapeCasts S4096x64x128
  reducesTo_S4096x64x128_S4096x64_d2 : S4096x64x128.ReducesTo [2] S4096x64
  h_S_ : 0 < S_.numel
  shapeCasts_S8192_S1x8192 : S8192.ShapeCasts S1x8192
  bcast_S1x8192_S4096x8192_0_1 : S1x8192.BroadcastsInDim S4096x8192 (![0, 1] : Fin 2 → Fin S4096x8192.rank)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S128x512_S128x512_0_0 : ∀ a, (![0, 0] : Fin 2 → Nat) a + S128x512.size a ≤ S128x512.size a
  h_S128x512 : 0 < S128x512.numel
  shapeCasts_S128x512_S128x1x512 : S128x512.ShapeCasts S128x1x512
  concatenates_S128x1x512_S128x1x512_S128x1x512_S128x1x512_S128x1x512_S128x1x512_S128x1x512_S128x1x512_S128x8x512_d1 : Shape.Concatenates [S128x1x512, S128x1x512, S128x1x512, S128x1x512, S128x1x512, S128x1x512, S128x1x512, S128x1x512] S128x8x512 1
  shapeCasts_S128x8x512_S1024x512 : S128x8x512.ShapeCasts S1024x512
  inb_S8x512_S8x512_0_0 : ∀ a, (![0, 0] : Fin 2 → Nat) a + S8x512.size a ≤ S8x512.size a
  h_S8x512 : 0 < S8x512.numel
  shapeCasts_S8x512_S8x1x512 : S8x512.ShapeCasts S8x1x512
  shapeCasts_S8x1x512_S8x1x512 : S8x1x512.ShapeCasts S8x1x512
  broadcasts_S8x1x512_S8x128x512 : S8x1x512.Broadcasts S8x128x512
  shapeCasts_S8x128x512_S1024x512 : S8x128x512.ShapeCasts S1024x512
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  dot_S4096x64_S64x8192_S4096x8192_1_0_0_1_n_n_wf : DotDims.WF S4096x64 S64x8192 S4096x8192 [1] [0] [0] [1] [] []
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x8192.size a
  hwx0_0 : ∀ i : grid0.Coords, EltTy.bits .bf16 = 32 ∨ (Rect.block (s := S4096x8192) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S1024x8192.size a
  hwx0_1 : ∀ i : grid0.Coords, EltTy.bits .i32 = 32 ∨ (Rect.block (s := S1024x8192) S128x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S64x8192.size a
  hwx0_2 : ∀ i : grid0.Coords, EltTy.bits .f32 = 32 ∨ (Rect.block (s := S64x8192) S8x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S4096x8192.size a
  hwx0_3 : ∀ i : grid0.Coords, EltTy.bits .f32 = 32 ∨ (Rect.block (s := S4096x8192) S2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S4096x8192.size a
  hwx0_4 : ∀ i : grid0.Coords, EltTy.bits .f32 = 32 ∨ (Rect.block (s := S4096x8192) S2048x512.size (cc0_transform_4 i) (hinb0_4 i)).WholeWords (EltTy.packing .f32)

variable [Facts₀]

def dot_S4096x64_S64x8192_S4096x8192_1_0_0_1_n_n : DotDims S4096x64 S64x8192 S4096x8192 where
  lhsContracting := [1]
  rhsContracting := [0]
  lhsNonContracting := [0]
  rhsNonContracting := [1]
  lhsBatch := []
  rhsBatch := []
  wf := dot_S4096x64_S64x8192_S4096x8192_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x8192 : Shape := ⟨2, ![4096, 8192]⟩
abbrev S1024x8192 : Shape := ⟨2, ![1024, 8192]⟩
abbrev S64x1024 : Shape := ⟨2, ![64, 1024]⟩
abbrev S64x8192 : Shape := ⟨2, ![64, 8192]⟩
abbrev S8192 : Shape := ⟨1, ![8192]⟩
abbrev S8 : Shape := ⟨1, ![8]⟩
abbrev S_ : Shape := ⟨0, ![]⟩
abbrev S1024x1x8192 : Shape := ⟨3, ![1024, 1, 8192]⟩
abbrev S1x8x1 : Shape := ⟨3, ![1, 8, 1]⟩
abbrev S1024x8x8192 : Shape := ⟨3, ![1024, 8, 8192]⟩
abbrev S64x128x8192 : Shape := ⟨3, ![64, 128, 8192]⟩
abbrev S64x1024x1 : Shape := ⟨3, ![64, 1024, 1]⟩
abbrev S1x1x8 : Shape := ⟨3, ![1, 1, 8]⟩
abbrev S64x1024x8 : Shape := ⟨3, ![64, 1024, 8]⟩
abbrev S64x1x8192 : Shape := ⟨3, ![64, 1, 8192]⟩
abbrev S8192x8192 : Shape := ⟨2, ![8192, 8192]⟩
abbrev S1x8192 : Shape := ⟨2, ![1, 8192]⟩

abbrev nBuf : Space → Nat
  | .hbm => 46
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S1024x8192, .i32⟩
  | .hbm, ⟨2, _⟩ => ⟨S64x1024, .i32⟩
  | .hbm, ⟨3, _⟩ => ⟨S64x8192, .f32⟩
  | .hbm, ⟨4, _⟩ => ⟨S8192, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S1024x1x8192, .i32⟩
  | .hbm, ⟨13, _⟩ => ⟨S1x8x1, .i32⟩
  | .hbm, ⟨14, _⟩ => ⟨S1024x8x8192, .i32⟩
  | .hbm, ⟨15, _⟩ => ⟨S1024x8x8192, .i32⟩
  | .hbm, ⟨16, _⟩ => ⟨S1024x8x8192, .i32⟩
  | .hbm, ⟨17, _⟩ => ⟨S_, .i32⟩
  | .hbm, ⟨18, _⟩ => ⟨S1024x8x8192, .i32⟩
  | .hbm, ⟨19, _⟩ => ⟨S1024x8x8192, .i32⟩
  | .hbm, ⟨20, _⟩ => ⟨S64x128x8192, .i32⟩
  | .hbm, ⟨21, _⟩ => ⟨S64x1024x1, .i32⟩
  | .hbm, ⟨22, _⟩ => ⟨S1x1x8, .i32⟩
  | .hbm, ⟨23, _⟩ => ⟨S64x1024x8, .i32⟩
  | .hbm, ⟨24, _⟩ => ⟨S64x1024x8, .i32⟩
  | .hbm, ⟨25, _⟩ => ⟨S64x1024x8, .i32⟩
  | .hbm, ⟨26, _⟩ => ⟨S_, .i32⟩
  | .hbm, ⟨27, _⟩ => ⟨S64x1024x8, .i32⟩
  | .hbm, ⟨28, _⟩ => ⟨S64x1024x8, .i32⟩
  | .hbm, ⟨29, _⟩ => ⟨S_, .i32⟩
  | .hbm, ⟨30, _⟩ => ⟨S64x1024x8, .i32⟩
  | .hbm, ⟨31, _⟩ => ⟨S64x1024x8, .i32⟩
  | .hbm, ⟨32, _⟩ => ⟨S64x8192, .i32⟩
  | .hbm, ⟨33, _⟩ => ⟨S64x1x8192, .f32⟩
  | .hbm, ⟨34, _⟩ => ⟨S64x128x8192, .f32⟩
  | .hbm, ⟨35, _⟩ => ⟨S64x1x8192, .i32⟩
  | .hbm, ⟨36, _⟩ => ⟨S64x1x8192, .f32⟩
  | .hbm, ⟨37, _⟩ => ⟨S64x128x8192, .f32⟩
  | .hbm, ⟨38, _⟩ => ⟨S64x128x8192, .f32⟩
  | .hbm, ⟨39, _⟩ => ⟨S64x128x8192, .f32⟩
  | .hbm, ⟨40, _⟩ => ⟨S64x128x8192, .f32⟩
  | .hbm, ⟨41, _⟩ => ⟨S8192x8192, .f32⟩
  | .hbm, ⟨42, _⟩ => ⟨S4096x8192, .f32⟩
  | .hbm, ⟨43, _⟩ => ⟨S1x8192, .f32⟩
  | .hbm, ⟨44, _⟩ => ⟨S4096x8192, .f32⟩
  | .hbm, ⟨45, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S1024x8192_S1024x1x8192_0_2 : S1024x8192.BroadcastsInDim S1024x1x8192 (![0, 2] : Fin 2 → Fin S1024x1x8192.rank)
  bcast_S8_S1x8x1_1 : S8.BroadcastsInDim S1x8x1 (![1] : Fin 1 → Fin S1x8x1.rank)
  bcast_S1024x1x8192_S1024x8x8192_0_1_2 : S1024x1x8192.BroadcastsInDim S1024x8x8192 (![0, 1, 2] : Fin 3 → Fin S1024x8x8192.rank)
  bcast_S1x8x1_S1024x8x8192_0_1_2 : S1x8x1.BroadcastsInDim S1024x8x8192 (![0, 1, 2] : Fin 3 → Fin S1024x8x8192.rank)
  bcast_S_S1024x8x8192 : S_.BroadcastsInDim S1024x8x8192 (![] : Fin 0 → Fin S1024x8x8192.rank)
  shapeCasts_S1024x8x8192_S64x128x8192 : S1024x8x8192.ShapeCasts S64x128x8192
  bcast_S64x1024_S64x1024x1_0_1 : S64x1024.BroadcastsInDim S64x1024x1 (![0, 1] : Fin 2 → Fin S64x1024x1.rank)
  bcast_S8_S1x1x8_2 : S8.BroadcastsInDim S1x1x8 (![2] : Fin 1 → Fin S1x1x8.rank)
  bcast_S64x1024x1_S64x1024x8_0_1_2 : S64x1024x1.BroadcastsInDim S64x1024x8 (![0, 1, 2] : Fin 3 → Fin S64x1024x8.rank)
  bcast_S1x1x8_S64x1024x8_0_1_2 : S1x1x8.BroadcastsInDim S64x1024x8 (![0, 1, 2] : Fin 3 → Fin S64x1024x8.rank)
  bcast_S_S64x1024x8 : S_.BroadcastsInDim S64x1024x8 (![] : Fin 0 → Fin S64x1024x8.rank)
  shapeCasts_S64x1024x8_S64x8192 : S64x1024x8.ShapeCasts S64x8192
  bcast_S64x8192_S64x1x8192_0_2 : S64x8192.BroadcastsInDim S64x1x8192 (![0, 2] : Fin 2 → Fin S64x1x8192.rank)
  bcast_S64x1x8192_S64x128x8192_0_1_2 : S64x1x8192.BroadcastsInDim S64x128x8192 (![0, 1, 2] : Fin 3 → Fin S64x128x8192.rank)
  shapeCasts_S64x128x8192_S8192x8192 : S64x128x8192.ShapeCasts S8192x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  dot_S4096x8192_S8192x8192_S4096x8192_1_0_0_1_n_n_wf : DotDims.WF S4096x8192 S8192x8192 S4096x8192 [1] [0] [0] [1] [] []

variable [Facts₀]

def dot_S4096x8192_S8192x8192_S4096x8192_1_0_0_1_n_n : DotDims S4096x8192 S8192x8192 S4096x8192 where
  lhsContracting := [1]
  rhsContracting := [0]
  lhsNonContracting := [0]
  rhsNonContracting := [1]
  lhsBatch := []
  rhsBatch := []
  wf := dot_S4096x8192_S8192x8192_S4096x8192_1_0_0_1_n_n_wf

class Facts : Prop extends Facts₀ where

variable [Facts]
-- ==== Proof.QuantSpec.lean ====
/-
  The mathematics of a 4-bit grouped quantized linear layer, stated once over the extended reals and
  independent of either program.

  A packed 32-bit word holds eight 4-bit fields; field `s` of a word `q` is `(q >>ₛ 4 s) &&& 15` (the shift
  is arithmetic, and for `s ≤ 7` its sign fill never reaches the four kept bits).  Row `k` of the unpacked
  weight matrix is field `k % 8` of packed row `k / 8`; column `o` of the unpacked zero points is field
  `o % 8` of packed column `o / 8`, plus one.  Rows are grouped in runs of 128; group `g` has its own scale and
  zero point per column.  The layer is `y[t,o] = Σ_k x[t,k] · (sc[k/128,o] · (w[k,o] − z[k/128,o])) + bias[o]`.

  `refAt` is that formula.  `kerAt` is the same number computed the other way round: the zero-point term is
  pulled out of the big sum — `Σ_k x·(sc·w)` accumulated in eight stretches of 1024 rows, minus
  `Σ_g (Σ_{j<128} x[t,128g+j]) · (sc[g,o]·z[g,o])` — which is distributivity and a regrouping of a finite sum,
  valid wherever `x`, `sc` and `bias` are real numbers (the integers `w`, `z` always are).
-/
import Idealize.ShloMosaic.PureOps.Ideal
import Idealize.ShloMosaic.Lib.ValueIdx

noncomputable section

namespace Cert.QuantSpec

open Idealize.ShloMosaic Idealize.ShloMosaic.ValueIdx

/-- activations and result [4096, 8192]; packed weights [1024, 8192]; packed zero points [64, 1024];
    scales [64, 8192]; bias [8192]. -/
abbrev SX : Shape := ⟨2, ![4096, 8192]⟩
abbrev SQ : Shape := ⟨2, ![1024, 8192]⟩
abbrev SZ : Shape := ⟨2, ![64, 1024]⟩
abbrev SS : Shape := ⟨2, ![64, 8192]⟩
abbrev SB : Shape := ⟨1, ![8192]⟩

/-- Field `s` of a packed word. -/
def nib (w : BitVec 32) (s : ℕ) : BitVec 32 :=
  IntOp.andi (IntOp.shrsi .vector w (BitVec.ofNat 32 (4 * s))) 15#32

/-- Row `kk` of the `s`-th stretch of 1024 rows (total in `s`; for `s < 8` it is `1024 s + kk`). -/
def kOf (s : ℕ) (kk : Fin 1024) : Fin 8192 := ⟨(1024 * s + kk.val) % 8192, Nat.mod_lt _ (by norm_num)⟩
/-- The group of a row. -/
def grp (k : Fin 8192) : Fin 64 := ⟨k.val / 128, by have := k.isLt; omega⟩
/-- Row `j` of group `g`. -/
def inGrp (g : Fin 64) (j : Fin 128) : Fin 8192 := ⟨128 * g.val + j.val, by have := g.isLt; have := j.isLt; omega⟩
/-- The packed row, resp. packed column, that holds an unpacked one. -/
def word (k : Fin 8192) : Fin 1024 := ⟨k.val / 8, by have := k.isLt; omega⟩

theorem kOf_val (s : ℕ) (hs : s < 8) (kk : Fin 1024) : (kOf s kk).val = 1024 * s + kk.val := by
  have := kk.isLt; show (1024 * s + kk.val) % 8192 = _; omega
theorem grp_val (k : Fin 8192) : (grp k).val = k.val / 128 := rfl
theorem inGrp_val (g : Fin 64) (j : Fin 128) : (inGrp g j).val = 128 * g.val + j.val := rfl
theorem word_val (k : Fin 8192) : (word k).val = k.val / 8 := rfl

/-- The unpacked weight `w[k,o]` as an extended real (an integer in `0 … 15`). -/
def wq (qw : IVec SQ 32) (k : Fin 8192) (o : Fin 8192) : EReal :=
  Scalar.sitofp (F := Ideal) .f32 (nib (qw (ix2 (word k) o)) (k.val % 8))
/-- The unpacked zero point `z[g,o]` as an extended real (an integer in `1 … 16`). -/
def zq (qz : IVec SZ 32) (g : Fin 64) (o : Fin 8192) : EReal :=
  Scalar.sitofp (F := Ideal) .f32 (IntOp.addi (nib (qz (ix2 g (word o))) (o.val % 8)) 1#32)

/-- One stretch's share of `Σ_k x[T,k]·(sc[k/128,O]·w[k,O])`. -/
def partialDot (x : FVec Ideal SX .f32) (qw : IVec SQ 32) (sc : FVec Ideal SS .f32) (T : Fin 4096) (O : Fin 8192) (s : ℕ) : EReal :=
  ∑ kk : Fin 1024, x (ix2 T (kOf s kk)) * (sc (ix2 (grp (kOf s kk)) O) * wq qw (kOf s kk) O)
/-- The sum of a row of `x` over one group. -/
def groupSum (x : FVec Ideal SX .f32) (T : Fin 4096) (g : Fin 64) : EReal :=
  ∑ j : Fin 128, x (ix2 T (inGrp g j))

/-- The layer with the zero-point term pulled out of the big sum. -/
def kerAt (x : FVec Ideal SX .f32) (qw : IVec SQ 32) (qz : IVec SZ 32) (sc : FVec Ideal SS .f32) (bias : FVec Ideal SB .f32)
    (T : Fin 4096) (O : Fin 8192) : EReal :=
  (∑ s ∈ Finset.range 8, partialDot x qw sc T O s)
    + (bias (ix1 O) - ∑ g : Fin 64, groupSum x T g * (sc (ix2 g O) * zq qz g O))
/-- The layer as defined. -/
def refAt (x : FVec Ideal SX .f32) (qw : IVec SQ 32) (qz : IVec SZ 32) (sc : FVec Ideal SS .f32) (bias : FVec Ideal SB .f32)
    (T : Fin 4096) (O : Fin 8192) : EReal :=
  (∑ k : Fin 8192, x (ix2 T k) * (sc (ix2 (grp k) O) * (wq qw k O - zq qz (grp k) O))) + bias (ix1 O)

/-- Both as whole arrays. -/
def kerOut (x : FVec Ideal SX .f32) (qw : IVec SQ 32) (qz : IVec SZ 32) (sc : FVec Ideal SS .f32) (bias : FVec Ideal SB .f32) :
    FVec Ideal SX .f32 := fun i => kerAt x qw qz sc bias (i 0) (i 1)
def refOut (x : FVec Ideal SX .f32) (qw : IVec SQ 32) (qz : IVec SZ 32) (sc : FVec Ideal SS .f32) (bias : FVec Ideal SB .f32) :
    FVec Ideal SX .f32 := fun i => refAt x qw qz sc bias (i 0) (i 1)

/-! ### Regrouping finite sums, and the law over the reals -/

/-- The coercion of a finite real sum is the sum of the coercions. -/
theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Eight stretches of 1024 rows are all 8192 rows: `(s, kk) ↦ 1024 s + kk`. -/
def stretchEquiv : Fin 8 × Fin 1024 ≃ Fin 8192 where
  toFun p := ⟨1024 * p.1.val + p.2.val, by have := p.1.isLt; have := p.2.isLt; omega⟩
  invFun k := (⟨k.val / 1024, by have := k.isLt; omega⟩, ⟨k.val % 1024, Nat.mod_lt _ (by norm_num)⟩)
  left_inv p := by
    have h1 := p.1.isLt; have h2 := p.2.isLt
    apply Prod.ext <;> apply Fin.ext <;> simp only <;> omega
  right_inv k := by
    apply Fin.ext; simp only; omega

/-- Sixty-four groups of 128 rows are all 8192 rows: `(g, j) ↦ 128 g + j`. -/
def groupEquiv : Fin 64 × Fin 128 ≃ Fin 8192 where
  toFun p := ⟨128 * p.1.val + p.2.val, by have := p.1.isLt; have := p.2.isLt; omega⟩
  invFun k := (⟨k.val / 128, by have := k.isLt; omega⟩, ⟨k.val % 128, Nat.mod_lt _ (by norm_num)⟩)
  left_inv p := by
    have h1 := p.1.isLt; have h2 := p.2.isLt
    apply Prod.ext <;> apply Fin.ext <;> simp only <;> omega
  right_inv k := by
    apply Fin.ext; simp only; omega

theorem sum_stretch (f : Fin 8192 → ℝ) :
    ∑ s ∈ Finset.range 8, ∑ kk : Fin 1024, f (kOf s kk) = ∑ k : Fin 8192, f k := by
  rw [Finset.sum_range (fun s => ∑ kk : Fin 1024, f (kOf s kk))]
  rw [← Fintype.sum_prod_type' (f := fun (s : Fin 8) (kk : Fin 1024) => f (kOf s.val kk))]
  apply Fintype.sum_equiv stretchEquiv
  rintro ⟨s, kk⟩
  congr 1
  apply Fin.ext
  rw [kOf_val _ s.isLt]
  rfl

theorem sum_group (f : Fin 8192 → ℝ) :
    ∑ g : Fin 64, ∑ j : Fin 128, f (inGrp g j) = ∑ k : Fin 8192, f k := by
  rw [← Fintype.sum_prod_type' (f := fun (g : Fin 64) (j : Fin 128) => f (inGrp g j))]
  apply Fintype.sum_equiv groupEquiv
  rintro ⟨g, j⟩
  rfl

theorem grp_inGrp (g : Fin 64) (j : Fin 128) : grp (inGrp g j) = g := by
  apply Fin.ext
  rw [grp_val, inGrp_val]
  have := j.isLt
  omega

/-- The law over the reals: distributivity and the two regroupings. -/
theorem real_law (X W : Fin 8192 → ℝ) (S Z : Fin 64 → ℝ) (B : ℝ) :
    (∑ s ∈ Finset.range 8, ∑ kk : Fin 1024, X (kOf s kk) * (S (grp (kOf s kk)) * W (kOf s kk)))
        + (B - ∑ g : Fin 64, (∑ j : Fin 128, X (inGrp g j)) * (S g * Z g))
      = (∑ k : Fin 8192, X k * (S (grp k) * (W k - Z (grp k)))) + B := by
  rw [sum_stretch (fun k => X k * (S (grp k) * W k))]
  have h1 : ∑ g : Fin 64, (∑ j : Fin 128, X (inGrp g j)) * (S g * Z g)
      = ∑ k : Fin 8192, X k * (S (grp k) * Z (grp k)) := by
    rw [← sum_group (fun k => X k * (S (grp k) * Z (grp k)))]
    apply Finset.sum_congr rfl
    intro g _
    rw [Finset.sum_mul]
    apply Finset.sum_congr rfl
    intro j _
    rw [grp_inGrp]
  have h2 : ∑ k : Fin 8192, X k * (S (grp k) * (W k - Z (grp k)))
      = ∑ k : Fin 8192, X k * (S (grp k) * W k) - ∑ k : Fin 8192, X k * (S (grp k) * Z (grp k)) := by
    rw [← Finset.sum_sub_distrib]
    apply Finset.sum_congr rfl
    intro k _
    ring
  rw [h1, h2]
  ring

/-- THE LAW: where the activations, the scales and the bias are real numbers the two computations agree. -/
theorem kerAt_eq_refAt (x : FVec Ideal SX .f32) (qw : IVec SQ 32) (qz : IVec SZ 32) (sc : FVec Ideal SS .f32) (bias : FVec Ideal SB .f32)
    (hx : ∀ i, ∃ r : ℝ, x i = (r : EReal)) (hs : ∀ i, ∃ r : ℝ, sc i = (r : EReal)) (hb : ∀ i, ∃ r : ℝ, bias i = (r : EReal))
    (T : Fin 4096) (O : Fin 8192) : kerAt x qw qz sc bias T O = refAt x qw qz sc bias T O := by
  choose xr hxr using hx
  choose sr hsr using hs
  choose br hbr using hb
  have hw : ∀ k : Fin 8192, wq qw k O
      = (((nib (qw (ix2 (word k) O)) (k.val % 8)).toInt : ℝ) : EReal) := fun k => rfl
  have hz : ∀ g : Fin 64, zq qz g O
      = (((IntOp.addi (nib (qz (ix2 g (word O))) (O.val % 8)) 1#32).toInt : ℝ) : EReal) := fun g => rfl
  unfold kerAt refAt partialDot groupSum
  simp only [hxr, hsr, hbr, hw, hz]
  simp only [← EReal.coe_mul, ← EReal.coe_sub, ← coe_finsum, ← EReal.coe_add]
  exact congrArg _ (real_law (fun k => xr (ix2 T k))
    (fun k => ((nib (qw (ix2 (word k) O)) (k.val % 8)).toInt : ℝ))
    (fun g => sr (ix2 g O))
    (fun g => ((IntOp.addi (nib (qz (ix2 g (word O))) (O.val % 8)) 1#32).toInt : ℝ))
    (br (ix1 O)))

theorem kerOut_eq_refOut (x : FVec Ideal SX .f32) (qw : IVec SQ 32) (qz : IVec SZ 32) (sc : FVec Ideal SS .f32) (bias : FVec Ideal SB .f32)
    (hx : ∀ i, ∃ r : ℝ, x i = (r : EReal)) (hs : ∀ i, ∃ r : ℝ, sc i = (r : EReal)) (hb : ∀ i, ∃ r : ℝ, bias i = (r : EReal)) :
    kerOut x qw qz sc bias = refOut x qw qz sc bias :=
  funext fun i => kerAt_eq_refAt x qw qz sc bias hx hs hb (i 0) (i 1)

end Cert.QuantSpec

end
-- ==== Proof.Finite.lean ====
/-
  From the precondition to real numbers: it says `|v| < +∞` of every entry of the activations, the scales and
  the bias, and an extended real whose absolute value is below `+∞` is a real number.
-/
import proofs.«421148_j19456201851575_3_alg».proof.Pre_finite_inputs
import proofs.«421148_j19456201851575_3_alg».proof.Proof.Gen.Pre_finite_inputs
import proofs.«421148_j19456201851575_3_alg».proof.Proof.QuantSpec
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx Cert.QuantSpec

/-- The rank-0 shape has a single index. -/
instance subsingleton_scalar_idx : Subsingleton Cert.Pre_finite_inputs.S_.Idx :=
  ⟨fun a b => funext fun d => d.elim0⟩

/-- The f32 word `0x7F800000` is `+∞`. -/
theorem ofBits_inf : Ideal.ofBits .f32 0x7F800000#32 = (⊤ : EReal) := by
  simp [Ideal.ofBits, Ideal.ieee]

/-- An extended real whose absolute value `max x (-x)` compares below `+∞` is a real number:
    `⊤` and `⊥` both have absolute value `⊤`. -/
theorem real_of_abs_lt (x : EReal)
    (h : Ideal.cmp .olt (max x (-x)) (Ideal.ofBits .f32 0x7F800000#32) = 1#1) : ∃ r : ℝ, x = (r : EReal) := by
  rw [ofBits_inf] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

theorem real_of_pre (a0 : FVec Ideal SX .f32) (a1 : IVec SQ 32) (a2 : IVec SZ 32) (a3 : FVec Ideal SS .f32) (a4 : FVec Ideal SB .f32)
    (h : Cert.Pre_finite_inputs.fn (F := Ideal) a0 a1 a2 a3 a4 = fun _ => 1#1) :
    (∀ i, ∃ r : ℝ, a0 i = (r : EReal)) ∧ (∀ i, ∃ r : ℝ, a3 i = (r : EReal)) ∧ (∀ i, ∃ r : ℝ, a4 i = (r : EReal)) := by
  -- the claim at the one index of the result: a conjunction of three `all`s
  have h0 := congrFun h ValueIdx.ix0
  unfold Cert.Pre_finite_inputs.fn at h0
  dsimp only at h0
  obtain ⟨h03, h4⟩ := IntOp.andi_eq_one.1 h0
  obtain ⟨hx, hs⟩ := IntOp.andi_eq_one.1 h03
  refine ⟨fun i => ?_, fun i => ?_, fun i => ?_⟩
  · exact real_of_abs_lt (a0 i) (Host.reduce_andi_all _ _ _ _ _ hx i)
  · exact real_of_abs_lt (a3 i) (Host.reduce_andi_all _ _ _ _ _ hs i)
  · exact real_of_abs_lt (a4 i) (Host.reduce_andi_all _ _ _ _ _ h4 i)

end Cert.FiniteInputs

end
-- ==== Proof.RefSpec.lean ====
/-
  The reference program's result, stage by stage, is the layer as defined: it unpacks the weights and the zero
  points, forms `sc · (w − z)` group by group, lays the groups out as one 8192-row matrix, multiplies the
  activations into it and adds the bias.
-/
import proofs.«421148_j19456201851575_3_alg».proof.Proof.Gen.ReferenceIdeal.Read
import proofs.«421148_j19456201851575_3_alg».proof.Proof.QuantSpec
import Idealize.ShloMosaic.Lib.ValueIdx
import Idealize.ShloMosaic.Lib.KernelVsHost

noncomputable section

namespace Cert.ReferenceIdeal.Bridge

open Cert.ReferenceIdeal Cert.ReferenceIdeal.Gen Idealize.ShloMosaic Idealize.ShloMosaic.ValueIdx Cert.QuantSpec

/-- The position of a row inside its group of 128. -/
def lo128 (k : Fin 8192) : Fin 128 := ⟨k.val % 128, Nat.mod_lt _ (by norm_num)⟩
/-- The field of a packed word that holds an unpacked row (or column). -/
def lo8 (k : Fin 8192) : Fin 8 := ⟨k.val % 8, Nat.mod_lt _ (by norm_num)⟩

/-- Entry `s` of `0 + 4 · iota` is the word `4 s`. -/
theorem shiftWord : ∀ s : Fin 8,
    IntOp.addi 0#32 (IntOp.muli 4#32 (BitVec.ofNat 32 s.val)) = BitVec.ofNat 32 (4 * s.val) := by decide

/-- The shift amounts `0 + 4 · iota`, read at `s`. -/
theorem v4_at (s : Fin 8) : Read.val_main_v4 (F := Ideal) (ix1 s) = BitVec.ofNat 32 (4 * s.val) := by
  rw [Read.val_main_v4_apply, Read.val_main_v3_apply, Read.val_main_c_0_apply, Read.val_main_v2_apply,
    Read.val_main_v1_apply, Read.val_main_c_apply, Read.val_main_v0_apply]
  exact shiftWord s

/-- The packed weights, broadcast, shifted and masked: field `s` of the packed word of row `w`. -/
theorem v11_at (x1 : IVec SQ 32) (w : Fin 1024) (s : Fin 8) (o : Fin 8192) :
    Read.val_main_v11 (F := Ideal) x1 (ix3 w s o) = nib (x1 (ix2 w o)) s.val := by
  have e1 : Read.idx_main_v5 (Read.idx_main_v7 (ix3 w s o)) = ix2 w o := by
    funext a; match a with | ⟨0, _⟩ => rfl | ⟨1, _⟩ => rfl
  have e2 : Read.idx_main_v6 (Read.idx_main_v8 (ix3 w s o)) = ix1 s := by
    funext a; match a with | ⟨0, _⟩ => rfl
  rw [Read.val_main_v11_apply, Read.val_main_v9_apply, Read.val_main_v10_apply, Read.val_main_c_1_apply,
    Read.val_main_v7_apply, Read.val_main_v5_apply, Read.val_main_v8_apply, Read.val_main_v6_apply,
    e1, e2, v4_at, shrsi_unit .host .vector]
  rfl

/-- Regrouping packed rows `[1024, 8]` as `[64, 128]` keeps the row-major position: row `k` of the unpacked
    matrix is field `k % 8` of packed row `k / 8`. -/
theorem idx12 (k o : Fin 8192) :
    Read.idx_main_v12 (ix3 (grp k) (lo128 k) o) = ix3 (word k) (lo8 k) o := by
  have hk := k.isLt
  have ho := o.isLt
  funext a
  match a with
  | ⟨0, _⟩ =>
    exact Fin.ext (by
      show ((k.val / 128 * 128 + k.val % 128) * 8192 + o.val) / 65536 = k.val / 8
      omega)
  | ⟨1, _⟩ =>
    exact Fin.ext (by
      show ((k.val / 128 * 128 + k.val % 128) * 8192 + o.val) / 8192 % 8 = k.val % 8
      omega)
  | ⟨2, _⟩ =>
    exact Fin.ext (by
      show ((k.val / 128 * 128 + k.val % 128) * 8192 + o.val) % 8192 = o.val
      omega)

/-- The unpacked weight of row `k`, column `o`, as a number. -/
theorem v24_at (x1 : IVec SQ 32) (k o : Fin 8192) :
    Read.val_main_v24 (F := Ideal) x1 (ix3 (grp k) (lo128 k) o) = wq x1 k o := by
  rw [Read.val_main_v24_apply, Read.val_main_v12_apply, idx12, v11_at]
  rfl

/-- The packed zero points, broadcast, shifted, masked, plus one. -/
theorem v21_at (x2 : IVec SZ 32) (g : Fin 64) (w : Fin 1024) (s : Fin 8) :
    Read.val_main_v21 (F := Ideal) x2 (ix3 g w s) = IntOp.addi (nib (x2 (ix2 g w)) s.val) 1#32 := by
  have e1 : Read.idx_main_v13 (Read.idx_main_v15 (ix3 g w s)) = ix2 g w := by
    funext a; match a with | ⟨0, _⟩ => rfl | ⟨1, _⟩ => rfl
  have e2 : Read.idx_main_v14 (Read.idx_main_v16 (ix3 g w s)) = ix1 s := by
    funext a; match a with | ⟨0, _⟩ => rfl
  rw [Read.val_main_v21_apply, Read.val_main_v19_apply, Read.val_main_v17_apply, Read.val_main_v18_apply,
    Read.val_main_c_2_apply, Read.val_main_v20_apply, Read.val_main_c_3_apply, Read.val_main_v15_apply,
    Read.val_main_v13_apply, Read.val_main_v16_apply, Read.val_main_v14_apply,
    e1, e2, v4_at, shrsi_unit .host .vector]
  rfl

/-- Flattening `[64, 1024, 8]` to `[64, 8192]`: column `o` is field `o % 8` of packed column `o / 8`. -/
theorem idx22 (g : Fin 64) (o : Fin 8192) :
    Read.idx_main_v22 (ix2 g o) = ix3 g (word o) (lo8 o) := by
  have hg := g.isLt
  have ho := o.isLt
  funext a
  match a with
  | ⟨0, _⟩ =>
    exact Fin.ext (by
      show (g.val * 8192 + o.val) / 8192 = g.val
      omega)
  | ⟨1, _⟩ =>
    exact Fin.ext (by
      show (g.val * 8192 + o.val) / 8 % 1024 = o.val / 8
      omega)
  | ⟨2, _⟩ =>
    exact Fin.ext (by
      show (g.val * 8192 + o.val) % 8 = o.val % 8
      omega)

/-- The zero point of group `g`, column `o`, as a number, at every row of the group. -/
theorem v27_at (x2 : IVec SZ 32) (g : Fin 64) (j : Fin 128) (o : Fin 8192) :
    Read.val_main_v27 (F := Ideal) x2 (ix3 g j o) = zq x2 g o := by
  have e : Read.idx_main_v25 (Read.idx_main_v27 (ix3 g j o)) = ix2 g o := by
    funext a; match a with | ⟨0, _⟩ => rfl | ⟨1, _⟩ => rfl
  rw [Read.val_main_v27_apply, Read.val_main_v26_apply, Read.val_main_v25_apply, Read.val_main_v22_apply,
    e, idx22, v21_at]
  rfl

/-- The scale of group `g`, column `o`, at every row of the group. -/
theorem v29_at (x3 : FVec Ideal SS .f32) (g : Fin 64) (j : Fin 128) (o : Fin 8192) :
    Read.val_main_v29 (F := Ideal) x3 (ix3 g j o) = x3 (ix2 g o) := by
  have e : Read.idx_main_v23 (Read.idx_main_v29 (ix3 g j o)) = ix2 g o := by
    funext a; match a with | ⟨0, _⟩ => rfl | ⟨1, _⟩ => rfl
  rw [Read.val_main_v29_apply, Read.val_main_v23_apply, e]

/-- Laying the 64 groups of 128 rows out as 8192 rows keeps the row-major position. -/
theorem idx31 (k o : Fin 8192) :
    Read.idx_main_v31 (ix2 k o) = ix3 (grp k) (lo128 k) o := by
  have hk := k.isLt
  have ho := o.isLt
  funext a
  match a with
  | ⟨0, _⟩ =>
    exact Fin.ext (by
      show (k.val * 8192 + o.val) / 1048576 = k.val / 128
      omega)
  | ⟨1, _⟩ =>
    exact Fin.ext (by
      show (k.val * 8192 + o.val) / 8192 % 128 = k.val % 128
      omega)
  | ⟨2, _⟩ =>
    exact Fin.ext (by
      show (k.val * 8192 + o.val) % 8192 = o.val
      omega)

/-- The dequantized weight matrix at row `k`, column `o`. -/
theorem v31_at (x1 : IVec SQ 32) (x2 : IVec SZ 32) (x3 : FVec Ideal SS .f32) (k o : Fin 8192) :
    Read.val_main_v31 (F := Ideal) x1 x2 x3 (ix2 k o)
      = x3 (ix2 (grp k) o) * (wq x1 k o - zq x2 (grp k) o) := by
  rw [Read.val_main_v31_apply, idx31, Read.val_main_v30_apply, Read.val_main_v28_apply, v29_at, v24_at, v27_at]
  rfl

theorem val_eq_refOut (x0 : FVec Ideal SX .f32) (x1 : IVec SQ 32) (x2 : IVec SZ 32) (x3 : FVec Ideal SS .f32) (x4 : FVec Ideal SB .f32) :
    Cert.ReferenceIdeal.Read.val_main_v35 (F := Ideal) x0 x1 x2 x3 x4 = refOut x0 x1 x2 x3 x4 := by
  funext i
  obtain ⟨T, O, rfl⟩ : ∃ (T : Fin 4096) (O : Fin 8192), i = ix2 T O := ⟨i 0, i 1, eq_ix2 i⟩
  show _ = refAt x0 x1 x2 x3 x4 T O
  unfold refAt
  have eb : Read.idx_main_v33 (Read.idx_main_v34 (ix2 T O)) = ix1 O := by
    funext a; match a with | ⟨0, _⟩ => rfl
  rw [Read.val_main_v35_apply, Read.val_main_v32_apply, Read.val_main_v34_apply, Read.val_main_v33_apply, eb]
  show (∑ k : Fin 8192, _) + x4 (ix1 O) = _
  congr 1
  refine Finset.sum_congr rfl fun k _ => ?_
  have el : Read.lidx_main_v32 (ix2 T O) k = ix2 T k := by
    funext a; match a with | ⟨0, _⟩ => rfl | ⟨1, _⟩ => rfl
  have er : Read.ridx_main_v32 (ix2 T O) k = ix2 k O := by
    funext a; match a with | ⟨0, _⟩ => rfl | ⟨1, _⟩ => rfl
  rw [el, er, v31_at]

end Cert.ReferenceIdeal.Bridge

end
-- ==== Proof.KerUpd.lean ====
/-
  One grid step's update of the accumulator, named: from a block of packed words the eight 4-bit fields are
  taken, interleaved into 1024 rows, scaled group by group, and multiplied into the block of activations;
  the product is added to what the accumulator held.
-/
import proofs.«421148_j19456201851575_3_alg».proof.Proof.Gen.KernelIdeal.Skeleton

noncomputable section

namespace Cert.KernelIdeal.Bridge

open Cert.KernelIdeal Cert.KernelIdeal.Gen Idealize.ShloMosaic

variable {F : FTy → Type} [FloatOps F]

/-- `acc + x0 · dequant(x1, x2)` for a [2048,1024] block `x0` of activations, a [128,512] block `x1` of packed
    words and an [8,512] block `x2` of scales. -/
def upd (x0 : Vec F S2048x1024 .bf16) (x1 : Vec F S128x512 .i32) (x2 : Vec F S8x512 .f32) (acc : Vec F S2048x512 .f32) :
    Vec F S2048x512 .f32 :=
  k0_pay1 (k0_pay4 x1) (k0_pay5 x1) (k0_pay6 x1) (k0_pay7 x1) (k0_pay8 x1) (k0_pay9 x1) (k0_pay10 x1) (k0_pay11 x1) x2 x0 acc

end Cert.KernelIdeal.Bridge

end
-- ==== Proof.KerPieces.lean ====
/-
  What each control case of the body leaves behind, as the body's own arithmetic: at the first step of a run of
  eight the accumulator is cleared and then updated, at the middle steps it is updated, and at the last step it
  is updated and the result block is the accumulator plus the block of the fourth operand.
-/
import proofs.«421148_j19456201851575_3_alg».proof.Proof.Gen.KernelIdeal.Frame
import proofs.«421148_j19456201851575_3_alg».proof.Proof.KerUpd
import Idealize.ShloMosaic.Lib.Pipeline.Value

set_option maxRecDepth 16384

noncomputable section

namespace Cert.KernelIdeal.Bridge

open Cert.KernelIdeal Cert.KernelIdeal.Gen Idealize.ShloMosaic Idealize.ShloMosaic.TcCoe Idealize.ShloMosaic.Tactic Idealize.SL.Sem

variable {F : FTy → Type} [FloatOps F]

/-- First step: the accumulator is zero-filled, then updated. -/
theorem sout_A (c : Dev nD) (i : grid0.Coords) (arg3 : Memref sig .tc .vmem S2048x1024 .bf16) (harg3 : arg3.IsWhole) (arg4 : Memref sig .tc .vmem S128x512 .i32) (harg4 : arg4.IsWhole) (arg5 : Memref sig .tc .vmem S8x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .f32) (harg8 : arg8.IsWhole) (hc0 : cond0_0 i) (hc1 : ¬cond0_1 i) (x0 : Vec F S2048x1024 .bf16) (x1 : Vec F S128x512 .i32) (x2 : Vec F S8x512 .f32) (x3 : Vec F S2048x512 .f32) :
    sout0_A_0 (F := F) c i arg3 harg3 arg4 harg4 arg5 harg5 arg6 harg6 arg7 harg7 arg8 harg8 hc0 hc1 x0 x1 x2 x3 = upd x0 x1 x2 (k0_pay3 (F := F)) := by
  -- the later of the two whole-block stores decides the contents; the accumulator it adds to is the zero fill read back
  have hz : (![0, 0] : Fin 2 → Nat) = fun _ => 0 := funext fun a => by fin_cases a <;> rfl
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S2048x512) hz, View.readCov_unit_zero (S := S2048x512) _ hz]
  simp only [View.readAt_eq_ld, harg3.read_unread, harg4.read_unread, harg5.read_unread, harg6.read_unread, harg8.read_unread, View.ld_unit_zero (S := S2048x1024) hz, View.ld_unit_zero (S := S128x512) hz, View.ld_unit_zero (S := S8x512) hz, View.ld_unit_zero (S := S2048x512) hz]
  rfl

/-- Middle steps: the accumulator is updated over what the step before left. -/
theorem sout_B (c : Dev nD) (i : grid0.Coords) (arg3 : Memref sig .tc .vmem S2048x1024 .bf16) (harg3 : arg3.IsWhole) (arg4 : Memref sig .tc .vmem S128x512 .i32) (harg4 : arg4.IsWhole) (arg5 : Memref sig .tc .vmem S8x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .f32) (harg8 : arg8.IsWhole) (hc0 : ¬cond0_0 i) (hc1 : ¬cond0_1 i) (x0 : Vec F S2048x1024 .bf16) (x1 : Vec F S128x512 .i32) (x2 : Vec F S8x512 .f32) (x3 : Vec F S2048x512 .f32) (xs0 : Vec F S2048x512 .f32) :
    sout0_B_0 (F := F) c i arg3 harg3 arg4 harg4 arg5 harg5 arg6 harg6 arg7 harg7 arg8 harg8 hc0 hc1 x0 x1 x2 x3 xs0 = upd x0 x1 x2 xs0 := by
  -- one whole-block store over whole-block loads of the operands and of the accumulator as the step before left it
  have hz : (![0, 0] : Fin 2 → Nat) = fun _ => 0 := funext fun a => by fin_cases a <;> rfl
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  simp only [View.readAt_eq_ld, harg3.read_unread, harg4.read_unread, harg5.read_unread, harg6.read_unread, harg8.read_unread, View.ld_unit_zero (S := S2048x1024) hz, View.ld_unit_zero (S := S128x512) hz, View.ld_unit_zero (S := S8x512) hz, View.ld_unit_zero (S := S2048x512) hz]
  rfl

/-- Last step: the same update of the accumulator, -/
theorem sout_C (c : Dev nD) (i : grid0.Coords) (arg3 : Memref sig .tc .vmem S2048x1024 .bf16) (harg3 : arg3.IsWhole) (arg4 : Memref sig .tc .vmem S128x512 .i32) (harg4 : arg4.IsWhole) (arg5 : Memref sig .tc .vmem S8x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .f32) (harg8 : arg8.IsWhole) (hc0 : ¬cond0_0 i) (hc1 : cond0_1 i) (x0 : Vec F S2048x1024 .bf16) (x1 : Vec F S128x512 .i32) (x2 : Vec F S8x512 .f32) (x3 : Vec F S2048x512 .f32) (xs0 : Vec F S2048x512 .f32) :
    sout0_C_0 (F := F) c i arg3 harg3 arg4 harg4 arg5 harg5 arg6 harg6 arg7 harg7 arg8 harg8 hc0 hc1 x0 x1 x2 x3 xs0 = upd x0 x1 x2 xs0 := by
  -- the same single whole-block store as at the middle steps
  have hz : (![0, 0] : Fin 2 → Nat) = fun _ => 0 := funext fun a => by fin_cases a <;> rfl
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread, View.ld_unit_zero (S := S2048x1024) hz, View.ld_unit_zero (S := S128x512) hz, View.ld_unit_zero (S := S8x512) hz, View.ld_unit_zero (S := S2048x512) hz]
  rfl

/-- and the result block is the updated accumulator plus the fourth operand's block. -/
theorem out_C (c : Dev nD) (i : grid0.Coords) (arg3 : Memref sig .tc .vmem S2048x1024 .bf16) (harg3 : arg3.IsWhole) (arg4 : Memref sig .tc .vmem S128x512 .i32) (harg4 : arg4.IsWhole) (arg5 : Memref sig .tc .vmem S8x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .f32) (harg8 : arg8.IsWhole) (hc0 : ¬cond0_0 i) (hc1 : cond0_1 i) (x0 : Vec F S2048x1024 .bf16) (x1 : Vec F S128x512 .i32) (x2 : Vec F S8x512 .f32) (x3 : Vec F S2048x512 .f32) (xs0 : Vec F S2048x512 .f32) :
    out0_C_4 (F := F) c i arg3 harg3 arg4 harg4 arg5 harg5 arg6 harg6 arg7 harg7 arg8 harg8 hc0 hc1 x0 x1 x2 x3 xs0 = k0_pay2 (upd x0 x1 x2 xs0) x3 := by
  -- one whole-block store whose first operand is the accumulator read back after its update
  have hz : (![0, 0] : Fin 2 → Nat) = fun _ => 0 := funext fun a => by fin_cases a <;> rfl
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread, View.ld_unit_zero (S := S2048x1024) hz, View.ld_unit_zero (S := S128x512) hz, View.ld_unit_zero (S := S8x512) hz, View.ld_unit_zero (S := S2048x512) hz, View.readCov_unit_zero (S := S2048x512) _ hz]
  rfl

end Cert.KernelIdeal.Bridge

end
-- ==== Proof.KerPayload.lean ====
/-
  The body's arithmetic read at an index, over the extended reals.  Row `kk` of the unpacked 1024-row weight
  block is field `kk % 8` of packed row `kk / 8`, scaled by the scale of group `kk / 128`; the update adds to
  the accumulator the inner product of a row of activations with a column of that block.
-/
import proofs.«421148_j19456201851575_3_alg».proof.Proof.KerUpd
import proofs.«421148_j19456201851575_3_alg».proof.Proof.QuantSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Cert.KernelIdeal Cert.KernelIdeal.Gen Idealize.ShloMosaic Idealize.ShloMosaic.ValueIdx Cert.QuantSpec

/-! ### The product of a [2048,1024] block with a [1024,512] block -/

theorem mm_lhs_0 (i : S2048x512.Idx) (q : dot_S2048x1024_S1024x512_S2048x512_1_0_0_1_n_n.contr.Idx) :
    (dot_S2048x1024_S1024x512_S2048x512_1_0_0_1_n_n.lhsIdx i q 0).val = (i 0).val := by
  unfold DotDims.lhsIdx
  rw [dif_neg (show ¬(0 : Fin S2048x1024.rank) ∈ dot_S2048x1024_S1024x512_S2048x512_1_0_0_1_n_n.lhsBatch by decide), dif_pos (show (0 : Fin S2048x1024.rank) ∈ dot_S2048x1024_S1024x512_S2048x512_1_0_0_1_n_n.lhsNonContracting by decide)]
  rfl
theorem mm_lhs_1 (i : S2048x512.Idx) (q : dot_S2048x1024_S1024x512_S2048x512_1_0_0_1_n_n.contr.Idx) :
    (dot_S2048x1024_S1024x512_S2048x512_1_0_0_1_n_n.lhsIdx i q 1).val = (q ⟨0, by decide⟩).val :=
  dot_S2048x1024_S1024x512_S2048x512_1_0_0_1_n_n.lhsIdx_val_of_single rfl i q
theorem mm_rhs_0 (i : S2048x512.Idx) (q : dot_S2048x1024_S1024x512_S2048x512_1_0_0_1_n_n.contr.Idx) :
    (dot_S2048x1024_S1024x512_S2048x512_1_0_0_1_n_n.rhsIdx i q 0).val = (q ⟨0, by decide⟩).val :=
  dot_S2048x1024_S1024x512_S2048x512_1_0_0_1_n_n.rhsIdx_val_of_single rfl i q
theorem mm_rhs_1 (i : S2048x512.Idx) (q : dot_S2048x1024_S1024x512_S2048x512_1_0_0_1_n_n.contr.Idx) :
    (dot_S2048x1024_S1024x512_S2048x512_1_0_0_1_n_n.rhsIdx i q 1).val = (i 1).val := by
  unfold DotDims.rhsIdx
  rw [dif_neg (show ¬(1 : Fin S1024x512.rank) ∈ dot_S2048x1024_S1024x512_S2048x512_1_0_0_1_n_n.rhsBatch by decide), dif_pos (show (1 : Fin S1024x512.rank) ∈ dot_S2048x1024_S1024x512_S2048x512_1_0_0_1_n_n.rhsNonContracting by decide)]
  rfl

/-- Entry `(p, q)` of the product into a cleared accumulator is the inner product of row `p` with column `q`. -/
theorem mm_apply (A : FVec Ideal S2048x1024 .bf16) (B : FVec Ideal S1024x512 .bf16) (p : Fin 2048) (q : Fin 512) :
    matmul dot_S2048x1024_S1024x512_S2048x512_1_0_0_1_n_n none A B (constant (F := Ideal) S2048x512 .f32 0x00000000#32) (ix2 p q)
      = ∑ kk : Fin 1024, A (ix2 p kk) * B (ix2 kk q) := by
  simp only [matmul]
  rw [Ideal.matmul_constant_zero_apply, ← Equiv.sum_comp (ValueIdx.contrEquiv1 dot_S2048x1024_S1024x512_S2048x512_1_0_0_1_n_n 1024 rfl rfl).symm]
  refine Finset.sum_congr rfl fun k _ => ?_
  have hk := ValueIdx.contrEquiv1_symm_val dot_S2048x1024_S1024x512_S2048x512_1_0_0_1_n_n 1024 rfl rfl k
  have el : dot_S2048x1024_S1024x512_S2048x512_1_0_0_1_n_n.lhsIdx (ix2 p q) ((ValueIdx.contrEquiv1 dot_S2048x1024_S1024x512_S2048x512_1_0_0_1_n_n 1024 rfl rfl).symm k) = ix2 p k := funext fun a => Fin.ext (by
    match a with
    | ⟨0, _⟩ => exact mm_lhs_0 _ _
    | ⟨1, _⟩ => exact (mm_lhs_1 _ _).trans hk)
  have er : dot_S2048x1024_S1024x512_S2048x512_1_0_0_1_n_n.rhsIdx (ix2 p q) ((ValueIdx.contrEquiv1 dot_S2048x1024_S1024x512_S2048x512_1_0_0_1_n_n 1024 rfl rfl).symm k) = ix2 k q := funext fun a => Fin.ext (by
    match a with
    | ⟨0, _⟩ => exact (mm_rhs_0 _ _).trans hk
    | ⟨1, _⟩ => exact mm_rhs_1 _ _)
  rw [el, er]

/-! ### The layout steps at an index -/

section Layout
variable {α : Type}

/-- A [128,512] block seen as [128,1,512]. -/
theorem unitW_apply (v : S128x512.Idx → α) (r : Fin 128) (u : Fin 1) (q : Fin 512) :
    shapeCast S128x1x512 v shapeCasts_S128x512_S128x1x512 (ix3 r u q) = v (ix2 r q) :=
  shapeCast_apply v _ _ _ (by
    have hu : u.val = 0 := by omega
    rw [Shape.rowMajor_val_two, Shape.rowMajor_val_three]
    show r.val * 512 + q.val = (r.val * 1 + u.val) * 512 + q.val
    omega)

/-- An [8,512] block seen as [8,1,512]. -/
theorem unitS_apply (v : S8x512.Idx → α) (g : Fin 8) (u : Fin 1) (q : Fin 512) :
    shapeCast S8x1x512 v shapeCasts_S8x512_S8x1x512 (ix3 g u q) = v (ix2 g q) :=
  shapeCast_apply v _ _ _ (by
    have hu : u.val = 0 := by omega
    rw [Shape.rowMajor_val_two, Shape.rowMajor_val_three]
    show g.val * 512 + q.val = (g.val * 1 + u.val) * 512 + q.val
    omega)

/-- Eight [128,1,512] pieces laid side by side along the middle axis: entry `(r, s, q)` is piece `s` at `(r, 0, q)`. -/
theorem cat8_apply (w0 w1 w2 w3 w4 w5 w6 w7 : S128x1x512.Idx → α) (r : Fin 128) (s : Fin 8) (q : Fin 512) :
    concatenate S128x8x512 1 [⟨S128x1x512, w0⟩, ⟨S128x1x512, w1⟩, ⟨S128x1x512, w2⟩, ⟨S128x1x512, w3⟩, ⟨S128x1x512, w4⟩, ⟨S128x1x512, w5⟩, ⟨S128x1x512, w6⟩, ⟨S128x1x512, w7⟩] concatenates_S128x1x512_S128x1x512_S128x1x512_S128x1x512_S128x1x512_S128x1x512_S128x1x512_S128x1x512_S128x8x512_d1 (ix3 r s q)
      = (![w0, w1, w2, w3, w4, w5, w6, w7] : Fin 8 → S128x1x512.Idx → α) s (ix3 r (0 : Fin 1) q) :=
  concatenate_ofFn_unit_apply (t := S128x8x512) (s₁ := S128x1x512) 1 (![w0, w1, w2, w3, w4, w5, w6, w7] : Fin 8 → S128x1x512.Idx → α)
    concatenates_S128x1x512_S128x1x512_S128x1x512_S128x1x512_S128x1x512_S128x1x512_S128x1x512_S128x1x512_S128x8x512_d1 rfl rfl (ix3 r s q) s rfl (ix3 r (0 : Fin 1) q)
    (fun b hb => by match b with | ⟨0, _⟩ => rfl | ⟨1, _⟩ => exact absurd rfl hb | ⟨2, _⟩ => rfl)

/-- Row `kk` of the [1024,512] view of a [128,8,512] array is its entry `(kk / 8, kk % 8)`. -/
theorem rows8_apply (w : S128x8x512.Idx → α) (kk : Fin 1024) (q : Fin 512) :
    shapeCast S1024x512 w shapeCasts_S128x8x512_S1024x512 (ix2 kk q)
      = w (ix3 (⟨kk.val / 8, by have := kk.isLt; omega⟩ : Fin 128) (⟨kk.val % 8, Nat.mod_lt _ (by norm_num)⟩ : Fin 8) q) :=
  shapeCast_apply w _ _ _ (by
    rw [Shape.rowMajor_val_three, Shape.rowMajor_val_two]
    show (kk.val / 8 * 8 + kk.val % 8) * 512 + q.val = kk.val * 512 + q.val
    have := kk.isLt; omega)

/-- Row `kk` of the [1024,512] view of an [8,128,512] array is its entry `(kk / 128, kk % 128)`. -/
theorem rows128_apply (w : S8x128x512.Idx → α) (kk : Fin 1024) (q : Fin 512) :
    shapeCast S1024x512 w shapeCasts_S8x128x512_S1024x512 (ix2 kk q)
      = w (ix3 (⟨kk.val / 128, by have := kk.isLt; omega⟩ : Fin 8) (⟨kk.val % 128, Nat.mod_lt _ (by norm_num)⟩ : Fin 128) q) :=
  shapeCast_apply w _ _ _ (by
    rw [Shape.rowMajor_val_three, Shape.rowMajor_val_two]
    show (kk.val / 128 * 128 + kk.val % 128) * 512 + q.val = kk.val * 512 + q.val
    have := kk.isLt; omega)

/-- An [8,1,512] array repeated 128 times along its unit axis. -/
theorem rep128_apply (v : S8x1x512.Idx → α) (g : Fin 8) (j : Fin 128) (q : Fin 512) :
    broadcastTo S8x128x512 v broadcasts_S8x1x512_S8x128x512 (ix3 g j q) = v (ix3 g (0 : Fin 1) q) :=
  broadcastTo_apply v _ (ix3 g j q) (ix3 g (0 : Fin 1) q) (fun a => match a with
    | ⟨0, _⟩ => by show g.val = if (8 : Nat) = 1 then 0 else g.val; rw [if_neg (by decide)]
    | ⟨1, _⟩ => by show 0 = if (1 : Nat) = 1 then 0 else j.val; rw [if_pos rfl]
    | ⟨2, _⟩ => by show q.val = if (512 : Nat) = 1 then 0 else q.val; rw [if_neg (by decide)])

end Layout

/-- The eight unit-axis views, picked by field number, read as the eight blocks themselves. -/
theorem pick8_unit {α : Type} (v0 v1 v2 v3 v4 v5 v6 v7 : S128x512.Idx → α) (s : Fin 8) (r : Fin 128) (u : Fin 1) (q : Fin 512) :
    (![shapeCast S128x1x512 v0 shapeCasts_S128x512_S128x1x512, shapeCast S128x1x512 v1 shapeCasts_S128x512_S128x1x512,
       shapeCast S128x1x512 v2 shapeCasts_S128x512_S128x1x512, shapeCast S128x1x512 v3 shapeCasts_S128x512_S128x1x512,
       shapeCast S128x1x512 v4 shapeCasts_S128x512_S128x1x512, shapeCast S128x1x512 v5 shapeCasts_S128x512_S128x1x512,
       shapeCast S128x1x512 v6 shapeCasts_S128x512_S128x1x512, shapeCast S128x1x512 v7 shapeCasts_S128x512_S128x1x512]
        : Fin 8 → S128x1x512.Idx → α) s (ix3 r u q)
      = (![v0, v1, v2, v3, v4, v5, v6, v7] : Fin 8 → S128x512.Idx → α) s (ix2 r q) := by
  match s with
  | ⟨0, _⟩ => exact unitW_apply v0 r u q
  | ⟨1, _⟩ => exact unitW_apply v1 r u q
  | ⟨2, _⟩ => exact unitW_apply v2 r u q
  | ⟨3, _⟩ => exact unitW_apply v3 r u q
  | ⟨4, _⟩ => exact unitW_apply v4 r u q
  | ⟨5, _⟩ => exact unitW_apply v5 r u q
  | ⟨6, _⟩ => exact unitW_apply v6 r u q
  | ⟨7, _⟩ => exact unitW_apply v7 r u q

/-! ### The eight fields of a block of packed words -/

/-- Field `s` of the block of packed words, entry by entry. -/
theorem field_apply (x1 : Vec Ideal S128x512 .i32) (s : Fin 8) (r : Fin 128) (q : Fin 512) :
    (![k0_pay4 (F := Ideal) x1, k0_pay5 (F := Ideal) x1, k0_pay6 (F := Ideal) x1, k0_pay7 (F := Ideal) x1,
       k0_pay8 (F := Ideal) x1, k0_pay9 (F := Ideal) x1, k0_pay10 (F := Ideal) x1, k0_pay11 (F := Ideal) x1]
        : Fin 8 → IVec S128x512 32) s (ix2 r q) = nib (x1 (ix2 r q)) s.val := by
  match s with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-! ### The body's arithmetic at an entry -/

/-- The update over eight arbitrary field blocks: the accumulator plus the inner product of a row of activations with a
    column of the scaled, interleaved fields. -/
theorem pay1_apply (v0 v1 v2 v3 v4 v5 v6 v7 : IVec S128x512 32) (sc : Vec Ideal S8x512 .f32)
    (x : Vec Ideal S2048x1024 .bf16) (acc : Vec Ideal S2048x512 .f32) (p : Fin 2048) (q : Fin 512) :
    k0_pay1 (F := Ideal) v0 v1 v2 v3 v4 v5 v6 v7 sc x acc (ix2 p q)
      = acc (ix2 p q) + ∑ kk : Fin 1024, x (ix2 p kk)
          * (sc (ix2 (⟨kk.val / 128, by have := kk.isLt; omega⟩ : Fin 8) q)
             * Scalar.sitofp (F := Ideal) .f32
                 ((![v0, v1, v2, v3, v4, v5, v6, v7] : Fin 8 → IVec S128x512 32) (⟨kk.val % 8, Nat.mod_lt _ (by norm_num)⟩ : Fin 8)
                   (ix2 (⟨kk.val / 8, by have := kk.isLt; omega⟩ : Fin 128) q))) := by
  unfold k0_pay1
  rw [shapeCast_self, shapeCast_self, shapeCast_self, addf_apply, mm_apply]
  congr 1
  refine Finset.sum_congr rfl fun kk _ => ?_
  rw [truncf_apply, mulf_apply, sitofp_apply, rows128_apply, rep128_apply, unitS_apply, rows8_apply, cat8_apply, pick8_unit]
  rfl

/-- The update at entry `(p, q)`. -/
theorem upd_apply (x0 : Vec Ideal S2048x1024 .bf16) (x1 : Vec Ideal S128x512 .i32) (x2 : Vec Ideal S8x512 .f32)
    (acc : Vec Ideal S2048x512 .f32) (p : Fin 2048) (q : Fin 512) :
    upd (F := Ideal) x0 x1 x2 acc (ix2 p q)
      = acc (ix2 p q) + ∑ kk : Fin 1024, x0 (ix2 p kk)
          * (x2 (ix2 (⟨kk.val / 128, by have := kk.isLt; omega⟩ : Fin 8) q)
             * Scalar.sitofp (F := Ideal) .f32 (nib (x1 (ix2 (⟨kk.val / 8, by have := kk.isLt; omega⟩ : Fin 128) q)) (kk.val % 8))) := by
  unfold upd
  refine (pay1_apply (k0_pay4 x1) (k0_pay5 x1) (k0_pay6 x1) (k0_pay7 x1) (k0_pay8 x1) (k0_pay9 x1) (k0_pay10 x1) (k0_pay11 x1) x2 x0 acc p q).trans ?_
  refine congrArg (fun z => acc (ix2 p q) + z) (Finset.sum_congr rfl fun kk _ => ?_)
  rw [field_apply]

/-- The last step's sum at an entry. -/
theorem pay2_apply (a b : Vec Ideal S2048x512 .f32) (p : Fin 2048) (q : Fin 512) :
    k0_pay2 (F := Ideal) a b (ix2 p q) = a (ix2 p q) + b (ix2 p q) := by
  unfold k0_pay2
  rw [shapeCast_self, addf_apply]

/-- The cleared accumulator is zero at every entry. -/
theorem pay3_apply (p : Fin 2048) (q : Fin 512) : (k0_pay3 (F := Ideal)) (ix2 p q) = 0 := by
  unfold k0_pay3
  rw [shapeCast_self, broadcast_apply]
  exact Ideal.ofBits_zero_f32

end Cert.KernelIdeal.Bridge

end
-- ==== Proof.KerBlocks.lean ====
/-
  Where each operand's block at a grid point sits in its array.  Point `t` of the 2 × 16 × 8 grid has row tile
  `t / 128`, column tile `(t / 8) % 16` and step `t % 8` along the contraction: the activations' block is rows
  `2048 (t/128) …`, columns `1024 (t%8) …`; the packed words' is rows `128 (t%8) …`, columns `512 ((t/8)%16) …`;
  the scales' is rows `8 (t%8) …` and the same columns; the fourth operand's and the result's are rows
  `2048 (t/128) …` and the same columns.
-/
import proofs.«421148_j19456201851575_3_alg».proof.Proof.Gen.KernelIdeal.Frame
import Idealize.ShloMosaic.Lib.ValueIdx
import Idealize.ShloMosaic.Lib.Pipeline.Value

noncomputable section

namespace Cert.KernelIdeal.Bridge

open Cert.KernelIdeal Cert.KernelIdeal.Gen Idealize.ShloMosaic Idealize.ShloMosaic.TcCoe Idealize.ShloMosaic.ValueIdx Idealize.SL.Sem

/-- Each window's block index at grid point `t`, read off the point's coordinates
    `(t / 128, (t / 8) % 16, t % 8)`: decided once over the 256 points. -/
theorem idx_facts : ∀ t : Fin cfg0.N,
    win0_0.index t (0 : Fin 2) = t.val / 128 ∧ win0_0.index t (1 : Fin 2) = t.val % 8 ∧
    win0_1.index t (0 : Fin 2) = t.val % 8 ∧ win0_1.index t (1 : Fin 2) = (t.val / 8) % 16 ∧
    win0_2.index t (0 : Fin 2) = t.val % 8 ∧ win0_2.index t (1 : Fin 2) = (t.val / 8) % 16 ∧
    win0_3.index t (0 : Fin 2) = t.val / 128 ∧ win0_3.index t (1 : Fin 2) = (t.val / 8) % 16 :=
  (by decide +kernel : ∀ t : Fin grid0.N, _)

variable {F : FTy → Type} [FloatOps F]
variable (m : (ℓ : Loc nD τ sig) → Buf (Elt F) ℓ)

/-- The blocks, typed by their literal shapes. -/
abbrev blkX (c : Dev nD) (t : Fin cfg0.N) : Vec F S2048x1024 .bf16 := iblk m c 0 t
abbrev blkQ (c : Dev nD) (t : Fin cfg0.N) : Vec F S128x512 .i32 := iblk m c 1 t
abbrev blkS (c : Dev nD) (t : Fin cfg0.N) : Vec F S8x512 .f32 := iblk m c 2 t
abbrev blkC (c : Dev nD) (t : Fin cfg0.N) : Vec F S2048x512 .f32 := iblk m c 3 t

theorem blkX_apply (c : Dev nD) (t : Fin cfg0.N) (p : Fin 2048) (kk : Fin 1024) (R : Fin 4096) (K : Fin 8192)
    (hR : R.val = 2048 * (t.val / 128) + p.val) (hK : K.val = 1024 * (t.val % 8) + kk.val) :
    blkX m c t (ix2 p kk) = (V m c main_v0 : Vec F S4096x8192 .bf16) (ix2 R K) := by
  -- a block's coordinate in its array is (block index) × (block size) + (coordinate inside the block)
  have hi := idx_facts t
  unfold blkX iblk
  rw [View.read_apply]
  show V m c main_v0 _ = V m c main_v0 _
  congr 1
  funext a
  apply Fin.ext
  match a with
  | ⟨0, _⟩ => show win0_0.index t (0 : Fin 2) * 2048 + 1 * p.val = R.val; rw [hi.1]; omega
  | ⟨1, _⟩ => show win0_0.index t (1 : Fin 2) * 1024 + 1 * kk.val = K.val; rw [hi.2.1]; omega

theorem blkQ_apply (c : Dev nD) (t : Fin cfg0.N) (r : Fin 128) (q : Fin 512) (R : Fin 1024) (O : Fin 8192)
    (hR : R.val = 128 * (t.val % 8) + r.val) (hO : O.val = 512 * ((t.val / 8) % 16) + q.val) :
    blkQ m c t (ix2 r q) = (V m c main_arg1 : Vec F S1024x8192 .i32) (ix2 R O) := by
  -- a block's coordinate in its array is (block index) × (block size) + (coordinate inside the block)
  have hi := idx_facts t
  unfold blkQ iblk
  rw [View.read_apply]
  show V m c main_arg1 _ = V m c main_arg1 _
  congr 1
  funext a
  apply Fin.ext
  match a with
  | ⟨0, _⟩ => show win0_1.index t (0 : Fin 2) * 128 + 1 * r.val = R.val; rw [hi.2.2.1]; omega
  | ⟨1, _⟩ => show win0_1.index t (1 : Fin 2) * 512 + 1 * q.val = O.val; rw [hi.2.2.2.1]; omega

theorem blkS_apply (c : Dev nD) (t : Fin cfg0.N) (g : Fin 8) (q : Fin 512) (G : Fin 64) (O : Fin 8192)
    (hG : G.val = 8 * (t.val % 8) + g.val) (hO : O.val = 512 * ((t.val / 8) % 16) + q.val) :
    blkS m c t (ix2 g q) = (V m c main_arg3 : Vec F S64x8192 .f32) (ix2 G O) := by
  -- a block's coordinate in its array is (block index) × (block size) + (coordinate inside the block)
  have hi := idx_facts t
  unfold blkS iblk
  rw [View.read_apply]
  show V m c main_arg3 _ = V m c main_arg3 _
  congr 1
  funext a
  apply Fin.ext
  match a with
  | ⟨0, _⟩ => show win0_2.index t (0 : Fin 2) * 8 + 1 * g.val = G.val; rw [hi.2.2.2.2.1]; omega
  | ⟨1, _⟩ => show win0_2.index t (1 : Fin 2) * 512 + 1 * q.val = O.val; rw [hi.2.2.2.2.2.1]; omega

theorem blkC_apply (c : Dev nD) (t : Fin cfg0.N) (p : Fin 2048) (q : Fin 512) (R : Fin 4096) (O : Fin 8192)
    (hR : R.val = 2048 * (t.val / 128) + p.val) (hO : O.val = 512 * ((t.val / 8) % 16) + q.val) :
    blkC m c t (ix2 p q) = (V m c main_v24 : Vec F S4096x8192 .f32) (ix2 R O) := by
  -- a block's coordinate in its array is (block index) × (block size) + (coordinate inside the block)
  have hi := idx_facts t
  unfold blkC iblk
  rw [View.read_apply]
  show V m c main_v24 _ = V m c main_v24 _
  congr 1
  funext a
  apply Fin.ext
  match a with
  | ⟨0, _⟩ => show win0_3.index t (0 : Fin 2) * 2048 + 1 * p.val = R.val; rw [hi.2.2.2.2.2.2.1]; omega
  | ⟨1, _⟩ => show win0_3.index t (1 : Fin 2) * 512 + 1 * q.val = O.val; rw [hi.2.2.2.2.2.2.2]; omega

end Cert.KernelIdeal.Bridge

end
-- ==== Proof.KerHost.lean ====
/-
  What the host operations in front of the kernel hand it, read at an index over the extended reals.
  The activations are passed through a change of float format, which is the identity here.  The fourth operand
  is `bias[o] − Σ_g xg[t,g] · (sc[g,o] · z[g,o])` with `xg[t,g]` the sum of row `t` of the activations over
  group `g` (a host sum started from zero) and `z` the unpacked zero points.
-/
import proofs.«421148_j19456201851575_3_alg».proof.Proof.Gen.KernelIdeal.Frame
import proofs.«421148_j19456201851575_3_alg».proof.Proof.QuantSpec
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost
import Idealize.ShloMosaic.PureOps.Ideal.Laws

noncomputable section

namespace Cert.KernelIdeal.Bridge

open Cert.KernelIdeal Cert.KernelIdeal.Gen Idealize.ShloMosaic Idealize.ShloMosaic.TcCoe Idealize.ShloMosaic.ValueIdx
  Idealize.SL.Sem Cert.QuantSpec

/-! ## The stages of the fourth operand as functions of the argument arrays -/

/-- The eight shift amounts `0 + 4·s`. -/
def hShift : IVec S8 32 :=
  addi (broadcastInDim S8 ![] bcast_S_S8 (constantI S_ 32 0#32))
    (muli (broadcastInDim S8 ![] bcast_S_S8 (constantI S_ 32 4#32)) (iotaInDim S8 32 0))

/-- The packed zero points and the shift amounts, each spread over [64, 1024, 8]. -/
def hZwords (qz : IVec S64x1024 32) : IVec S64x1024x8 32 :=
  broadcastInDim S64x1024x8 ![0, 1, 2] bcast_S64x1024x1_S64x1024x8_0_1_2
    (broadcastInDim S64x1024x1 ![0, 1] bcast_S64x1024_S64x1024x1_0_1 qz)
def hZshift : IVec S64x1024x8 32 :=
  broadcastInDim S64x1024x8 ![0, 1, 2] bcast_S1x1x8_S64x1024x8_0_1_2
    (broadcastInDim S1x1x8 ![2] bcast_S8_S1x1x8_2 hShift)

/-- The unpacked zero points, still as [64, 1024, 8]: field, mask, plus one. -/
def hZfields (qz : IVec S64x1024 32) : IVec S64x1024x8 32 :=
  addi (andi (Host.shrsi (hZwords qz) hZshift) (broadcastInDim S64x1024x8 ![] bcast_S_S64x1024x8 (constantI S_ 32 15#32)))
    (broadcastInDim S64x1024x8 ![] bcast_S_S64x1024x8 (constantI S_ 32 1#32))

/-- The unpacked zero points as a [64, 8192] array of integers. -/
def hZint (qz : IVec S64x1024 32) : IVec S64x8192 32 :=
  shapeCast _ (hZfields qz) shapeCasts_S64x1024x8_S64x8192

/-- Scale times zero point. -/
def hScz (sc : FVec Ideal S64x8192 .f32) (qz : IVec S64x1024 32) : FVec Ideal S64x8192 .f32 :=
  mulf sc (sitofp .f32 (hZint qz))

/-- The activations regrouped as [4096, 64, 128]. -/
def hXr (x : FVec Ideal S4096x8192 .f32) : FVec Ideal S4096x64x128 .f32 :=
  extf .f32 (shapeCast _ (truncf .bf16 x bitsLt_bf16_f32 : FVec Ideal S4096x8192 .bf16) shapeCasts_S4096x8192_S4096x64x128 : FVec Ideal S4096x64x128 .bf16) bitsLt_bf16_f32

/-- The group sums of the activations. -/
def hXg (x : FVec Ideal S4096x8192 .f32) : FVec Ideal S4096x64 .f32 :=
  Host.reduceAdd (hXr x) (constant (F := Ideal) S_ .f32 0x00000000#32) reducesTo_S4096x64x128_S4096x64_d2 h_S_

/-- The zero-point term. -/
def hDot (x : FVec Ideal S4096x8192 .f32) (sc : FVec Ideal S64x8192 .f32) (qz : IVec S64x1024 32) : FVec Ideal S4096x8192 .f32 :=
  Host.dotGeneral dot_S4096x64_S64x8192_S4096x8192_1_0_0_1_n_n (some .fp32) (hXg x) (hScz sc qz)

/-- The bias spread over the rows. -/
def hBias (b : FVec Ideal S8192 .f32) : FVec Ideal S4096x8192 .f32 :=
  broadcastInDim S4096x8192 ![0, 1] bcast_S1x8192_S4096x8192_0_1 (shapeCast _ b shapeCasts_S8192_S1x8192)

/-- The fourth operand. -/
def hC (x : FVec Ideal S4096x8192 .f32) (qz : IVec S64x1024 32) (sc : FVec Ideal S64x8192 .f32) (b : FVec Ideal S8192 .f32) :
    FVec Ideal S4096x8192 .f32 :=
  subf (hBias b) (hDot x sc qz)

/-! ## The stages read at an index -/

theorem hShift_apply (s : Fin 8) :
    hShift (ix1 s) = IntOp.addi 0#32 (IntOp.muli 4#32 (BitVec.ofNat 32 s.val)) := rfl

/-- `0 + 4·s` as a 32-bit word is the word `4 s`, for each of the eight fields. -/
theorem shiftAmt : ∀ s : Fin 8,
    IntOp.addi 0#32 (IntOp.muli 4#32 (BitVec.ofNat 32 s.val)) = BitVec.ofNat 32 (4 * s.val) := by decide

theorem hZwords_apply (qz : IVec S64x1024 32) (g : Fin 64) (w : Fin 1024) (s : Fin 8) :
    hZwords qz (ix3 g w s) = qz (ix2 g w) := by
  unfold hZwords
  refine (broadcastInDim_apply _ bcast_S64x1024x1_S64x1024x8_0_1_2 _ (ix3 g w s) (ix3 g w (0 : Fin 1)) (fun a => match a with
    | ⟨0, _⟩ => by show g.val = if (64 : Nat) = 1 then 0 else g.val; rw [if_neg (by decide)]
    | ⟨1, _⟩ => by show w.val = if (1024 : Nat) = 1 then 0 else w.val; rw [if_neg (by decide)]
    | ⟨2, _⟩ => by show 0 = if (1 : Nat) = 1 then 0 else s.val; rw [if_pos rfl])).trans ?_
  exact broadcastInDim_apply _ bcast_S64x1024_S64x1024x1_0_1 qz (ix3 g w (0 : Fin 1)) (ix2 g w) (fun a => match a with
    | ⟨0, _⟩ => by show g.val = if (64 : Nat) = 1 then 0 else g.val; rw [if_neg (by decide)]
    | ⟨1, _⟩ => by show w.val = if (1024 : Nat) = 1 then 0 else w.val; rw [if_neg (by decide)])

theorem hZshift_apply (g : Fin 64) (w : Fin 1024) (s : Fin 8) :
    hZshift (ix3 g w s) = hShift (ix1 s) := by
  unfold hZshift
  generalize hShift = y
  refine (broadcastInDim_apply _ bcast_S1x1x8_S64x1024x8_0_1_2 _ (ix3 g w s) (ix3 (0 : Fin 1) (0 : Fin 1) s) (fun a => match a with
    | ⟨0, _⟩ => by show 0 = if (1 : Nat) = 1 then 0 else g.val; rw [if_pos rfl]
    | ⟨1, _⟩ => by show 0 = if (1 : Nat) = 1 then 0 else w.val; rw [if_pos rfl]
    | ⟨2, _⟩ => by show s.val = if (8 : Nat) = 1 then 0 else s.val; rw [if_neg (by decide)])).trans ?_
  exact broadcastInDim_apply _ bcast_S8_S1x1x8_2 y (ix3 (0 : Fin 1) (0 : Fin 1) s) (ix1 s) (fun a => match a with
    | ⟨0, _⟩ => by show s.val = if (8 : Nat) = 1 then 0 else s.val; rw [if_neg (by decide)])

/-- Column `o` of the unpacked zero points is field `o % 8` of packed column `o / 8`, plus one. -/
theorem hZint_apply (qz : IVec S64x1024 32) (g : Fin 64) (o : Fin 8192) :
    hZint qz (ix2 g o) = IntOp.addi (nib (qz (ix2 g (word o))) (o.val % 8)) 1#32 := by
  have hs : o.val % 8 < 8 := Nat.mod_lt _ (by norm_num)
  unfold hZint
  refine (shapeCast_apply (hZfields qz) shapeCasts_S64x1024x8_S64x8192 (ix2 g o) (ix3 g (word o) ⟨o.val % 8, hs⟩) ?_).trans ?_
  · rewrite [Shape.rowMajor_val_three, Shape.rowMajor_val_two]
    have h0 := g.isLt; have h1 := o.isLt
    show (g.val * 1024 + o.val / 8) * 8 + o.val % 8 = g.val * 8192 + o.val
    omega
  · show IntOp.addi (IntOp.andi (IntOp.shrsi .host (hZwords qz (ix3 g (word o) ⟨o.val % 8, hs⟩))
        (hZshift (ix3 g (word o) ⟨o.val % 8, hs⟩))) 15#32) 1#32 = _
    rw [hZwords_apply, hZshift_apply, hShift_apply, shiftAmt, shrsi_unit .host .vector]
    rfl

theorem hScz_apply (sc : FVec Ideal S64x8192 .f32) (qz : IVec S64x1024 32) (g : Fin 64) (o : Fin 8192) :
    hScz sc qz (ix2 g o) = sc (ix2 g o) * zq qz g o := by
  show sc (ix2 g o) * FloatOps.sitofp .f32 (hZint qz (ix2 g o)) = _
  rw [hZint_apply]
  rfl

/-- Column `128 g + j` of the activations is entry `(g, j)` of the regrouped array. -/
theorem hXr_apply (x : FVec Ideal S4096x8192 .f32) (t : Fin 4096) (g : Fin 64) (j : Fin 128) :
    hXr x (ix3 t g j) = x (ix2 t (inGrp g j)) := by
  unfold hXr
  rw [extf_apply]
  refine (shapeCast_apply _ shapeCasts_S4096x8192_S4096x64x128 (ix3 t g j) (ix2 t (inGrp g j)) ?_).trans ?_
  · rewrite [Shape.rowMajor_val_two, Shape.rowMajor_val_three]
    have h0 := t.isLt; have h1 := g.isLt; have h2 := j.isLt
    show t.val * 8192 + (128 * g.val + j.val) = (t.val * 64 + g.val) * 128 + j.val
    omega
  · rfl

/-- The host sum over the last axis, started from zero, is the group sum. -/
theorem hXg_apply (x : FVec Ideal S4096x8192 .f32) (t : Fin 4096) (g : Fin 64) :
    hXg x (ix2 t g) = groupSum x t g := by
  have h : S4096x64x128.Reduces [2] S4096x64 := by decide
  unfold hXg
  show Ideal.hostReduceAdd reducesTo_S4096x64x128_S4096x64_d2 (hXr x)
      (constant (F := Ideal) S_ .f32 0x00000000#32 (Shape.Idx.first h_S_)) (ix2 t g) = _
  rw [Ideal.hostReduceAdd_single reducesTo_S4096x64x128_S4096x64_d2 h, constant_apply, Ideal.ofBits_zero_f32, zero_add]
  unfold groupSum
  refine Finset.sum_congr rfl fun k _ => ?_
  have e : h.lift (ix2 t g) k = ix3 t g k := funext fun a => Fin.ext (by
    match a with
    | ⟨0, _⟩ => rfl
    | ⟨1, _⟩ => rfl
    | ⟨2, _⟩ => rfl)
  rw [e]
  exact hXr_apply x t g k

theorem lhs_hDot_0 (i : S4096x8192.Idx) (q : dot_S4096x64_S64x8192_S4096x8192_1_0_0_1_n_n.contr.Idx) :
    (dot_S4096x64_S64x8192_S4096x8192_1_0_0_1_n_n.lhsIdx i q 0).val = (i 0).val := by
  unfold DotDims.lhsIdx
  rw [dif_neg (show ¬(0 : Fin S4096x64.rank) ∈ dot_S4096x64_S64x8192_S4096x8192_1_0_0_1_n_n.lhsBatch by decide), dif_pos (show (0 : Fin S4096x64.rank) ∈ dot_S4096x64_S64x8192_S4096x8192_1_0_0_1_n_n.lhsNonContracting by decide)]
  rfl
theorem lhs_hDot_1 (i : S4096x8192.Idx) (q : dot_S4096x64_S64x8192_S4096x8192_1_0_0_1_n_n.contr.Idx) :
    (dot_S4096x64_S64x8192_S4096x8192_1_0_0_1_n_n.lhsIdx i q 1).val = (q ⟨0, by decide⟩).val :=
  dot_S4096x64_S64x8192_S4096x8192_1_0_0_1_n_n.lhsIdx_val_of_single rfl i q
theorem rhs_hDot_0 (i : S4096x8192.Idx) (q : dot_S4096x64_S64x8192_S4096x8192_1_0_0_1_n_n.contr.Idx) :
    (dot_S4096x64_S64x8192_S4096x8192_1_0_0_1_n_n.rhsIdx i q 0).val = (q ⟨0, by decide⟩).val :=
  dot_S4096x64_S64x8192_S4096x8192_1_0_0_1_n_n.rhsIdx_val_of_single rfl i q
theorem rhs_hDot_1 (i : S4096x8192.Idx) (q : dot_S4096x64_S64x8192_S4096x8192_1_0_0_1_n_n.contr.Idx) :
    (dot_S4096x64_S64x8192_S4096x8192_1_0_0_1_n_n.rhsIdx i q 1).val = (i 1).val := by
  unfold DotDims.rhsIdx
  rw [dif_neg (show ¬(1 : Fin S64x8192.rank) ∈ dot_S4096x64_S64x8192_S4096x8192_1_0_0_1_n_n.rhsBatch by decide), dif_pos (show (1 : Fin S64x8192.rank) ∈ dot_S4096x64_S64x8192_S4096x8192_1_0_0_1_n_n.rhsNonContracting by decide)]
  rfl

/-- The host product at `(t, o)` is the sum over the 64 groups. -/
theorem hDot_apply (x : FVec Ideal S4096x8192 .f32) (sc : FVec Ideal S64x8192 .f32) (qz : IVec S64x1024 32)
    (t : Fin 4096) (o : Fin 8192) :
    hDot x sc qz (ix2 t o) = ∑ g : Fin 64, hXg x (ix2 t g) * hScz sc qz (ix2 g o) := by
  unfold hDot
  generalize hXg x = l
  generalize hScz sc qz = r
  simp only [Host.dotGeneral]
  rw [Ideal.dotGeneral_apply, ← Equiv.sum_comp (ValueIdx.contrEquiv1 dot_S4096x64_S64x8192_S4096x8192_1_0_0_1_n_n 64 rfl rfl).symm]
  refine Finset.sum_congr rfl fun k _ => ?_
  have hk := ValueIdx.contrEquiv1_symm_val dot_S4096x64_S64x8192_S4096x8192_1_0_0_1_n_n 64 rfl rfl k
  have el : dot_S4096x64_S64x8192_S4096x8192_1_0_0_1_n_n.lhsIdx (ix2 t o) ((ValueIdx.contrEquiv1 dot_S4096x64_S64x8192_S4096x8192_1_0_0_1_n_n 64 rfl rfl).symm k) = ix2 t k := funext fun a => Fin.ext (by
    match a with
    | ⟨0, _⟩ => exact lhs_hDot_0 _ _
    | ⟨1, _⟩ => exact (lhs_hDot_1 _ _).trans hk)
  have er : dot_S4096x64_S64x8192_S4096x8192_1_0_0_1_n_n.rhsIdx (ix2 t o) ((ValueIdx.contrEquiv1 dot_S4096x64_S64x8192_S4096x8192_1_0_0_1_n_n 64 rfl rfl).symm k) = ix2 k o := funext fun a => Fin.ext (by
    match a with
    | ⟨0, _⟩ => exact (rhs_hDot_0 _ _).trans hk
    | ⟨1, _⟩ => exact rhs_hDot_1 _ _)
  rw [el, er]

theorem hBias_apply (b : FVec Ideal S8192 .f32) (t : Fin 4096) (o : Fin 8192) :
    hBias b (ix2 t o) = b (ix1 o) := by
  unfold hBias
  refine (broadcastInDim_apply _ bcast_S1x8192_S4096x8192_0_1 _ (ix2 t o) (ix2 (0 : Fin 1) o) (fun a => match a with
    | ⟨0, _⟩ => by show 0 = if (1 : Nat) = 1 then 0 else t.val; rw [if_pos rfl]
    | ⟨1, _⟩ => by show o.val = if (8192 : Nat) = 1 then 0 else o.val; rw [if_neg (by decide)])).trans ?_
  refine shapeCast_apply b shapeCasts_S8192_S1x8192 (ix2 (0 : Fin 1) o) (ix1 o) ?_
  rewrite [Shape.rowMajor_val_one, Shape.rowMajor_val_two]
  show o.val = 0 * 8192 + o.val
  omega

variable (m : (ℓ : Loc nD τ sig) → Buf (Elt Ideal) ℓ)

/-- The five argument arrays as launched, typed by their literal shapes. -/
abbrev argX (c : Dev nD) : FVec Ideal SX .f32 := m ((c : Thread nD τ).loc main_arg0)
abbrev argQ (c : Dev nD) : IVec SQ 32 := m ((c : Thread nD τ).loc main_arg1)
abbrev argZ (c : Dev nD) : IVec SZ 32 := m ((c : Thread nD τ).loc main_arg2)
abbrev argS (c : Dev nD) : FVec Ideal SS .f32 := m ((c : Thread nD τ).loc main_arg3)
abbrev argB (c : Dev nD) : FVec Ideal SB .f32 := m ((c : Thread nD τ).loc main_arg4)

/-- The activations the kernel is handed are the launched ones. -/
theorem V_x_apply (c : Dev nD) (R : Fin 4096) (K : Fin 8192) :
    (V m c main_v0 : Vec Ideal S4096x8192 .bf16) (ix2 R K) = argX m c (ix2 R K) := by
  have e : (V m c main_v0 : S4096x8192.Idx → EReal)
      = (truncf .bf16 (argX m c) bitsLt_bf16_f32 : FVec Ideal S4096x8192 .bf16) := by
    dsimp only [Gen.V, Gen.hostOps0]; after_results
  exact congrFun e (ix2 R K)

/-- The packed words and the scales are handed over as launched. -/
theorem V_q_apply (c : Dev nD) (R : Fin 1024) (O : Fin 8192) :
    (V m c main_arg1 : Vec Ideal S1024x8192 .i32) (ix2 R O) = argQ m c (ix2 R O) :=
  congrFun (V_main_arg1 m c) (ix2 R O)

theorem V_s_apply (c : Dev nD) (G : Fin 64) (O : Fin 8192) :
    (V m c main_arg3 : Vec Ideal S64x8192 .f32) (ix2 G O) = argS m c (ix2 G O) :=
  congrFun (V_main_arg3 m c) (ix2 G O)

/-- The fourth operand is the stages' composite. -/
theorem V_c_eq (c : Dev nD) :
    (V m c main_v24 : S4096x8192.Idx → EReal) = hC (argX m c) (argZ m c) (argS m c) (argB m c) := by
  dsimp only [Gen.V, Gen.hostOps0]; after_results_simp; rfl

/-- The fourth operand: the bias minus the zero-point term. -/
theorem V_c_apply (c : Dev nD) (R : Fin 4096) (O : Fin 8192) :
    (V m c main_v24 : Vec Ideal S4096x8192 .f32) (ix2 R O)
      = argB m c (ix1 O) - ∑ g : Fin 64, groupSum (argX m c) R g * (argS m c (ix2 g O) * zq (argZ m c) g O) := by
  refine (congrFun (V_c_eq m c) (ix2 R O)).trans ?_
  generalize argX m c = x
  generalize argZ m c = qz
  generalize argS m c = sc
  generalize argB m c = b
  show hBias b (ix2 R O) - hDot x sc qz (ix2 R O) = _
  rw [hBias_apply, hDot_apply]
  refine congrArg _ (Finset.sum_congr rfl fun g _ => ?_)
  rw [hXg_apply, hScz_apply]

end Cert.KernelIdeal.Bridge

end
-- ==== Proof.KerValue.lean ====
/-
  The kernel's result array, read off its run.  The grid is 2 × 16 × 8: for each of the 2 × 16 result tiles a run of
  eight consecutive points walks the contraction axis in stretches of 1024 rows.  The first point of a run clears
  the accumulator and adds its stretch's product, each later point adds its own, so after the eighth the
  accumulator holds the sum of the eight partial products; that point adds the fourth operand's tile (the bias
  minus the zero-point term) and writes the tile back.  The tiles cover the array, so the array ends holding
  `kerOut` of the launched arguments.
-/
import proofs.«421148_j19456201851575_3_alg».proof.Proof.Gen.KernelIdeal.Value
import proofs.«421148_j19456201851575_3_alg».proof.Proof.KerPieces
import proofs.«421148_j19456201851575_3_alg».proof.Proof.KerPayload
import proofs.«421148_j19456201851575_3_alg».proof.Proof.KerBlocks
import proofs.«421148_j19456201851575_3_alg».proof.Proof.KerHost
import proofs.«421148_j19456201851575_3_alg».proof.Proof.QuantSpec
import Idealize.ShloMosaic.Lib.Pipeline.Value
import Idealize.ShloMosaic.Lib.ValueIdx

noncomputable section

namespace Cert.KernelIdeal.Bridge

open Cert.KernelIdeal Cert.KernelIdeal.Gen Idealize.ShloMosaic Idealize.ShloMosaic.TcCoe Idealize.ShloMosaic.ValueIdx
  Idealize.SL.Sem Cert.QuantSpec
open Idealize.ShloMosaic.Pipeline (Dat)

variable (m : (ℓ : Loc nD τ sig) → Buf (Elt Ideal) ℓ) (ρ : Dev nD → PrngReg)

/-! ## One point's step of the accumulator -/

/-- At the first point of a run the accumulator ends at the update of the cleared one, whatever it held. -/
theorem scAt_first (c : Dev nD) (n : ℕ) (hb : n < cfg0.N) (h0 : n % 8 = 0) (acc : Vec Ideal S2048x512 .f32) :
    Value.scAt0_0 m c n hb acc = upd (blkX m c ⟨n, hb⟩) (blkQ m c ⟨n, hb⟩) (blkS m c ⟨n, hb⟩) (k0_pay3 (F := Ideal)) := by
  have h1 : ¬ n % 8 = 7 := by omega
  unfold Value.scAt0_0
  rw [dif_pos h0, dif_neg h1]
  exact sout_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))

/-- At every other point it ends at the update of what the point before left. -/
theorem scAt_later (c : Dev nD) (n : ℕ) (hb : n < cfg0.N) (h0 : ¬ n % 8 = 0) (acc : Vec Ideal S2048x512 .f32) :
    Value.scAt0_0 m c n hb acc = upd (blkX m c ⟨n, hb⟩) (blkQ m c ⟨n, hb⟩) (blkS m c ⟨n, hb⟩) acc := by
  unfold Value.scAt0_0
  rw [dif_neg h0]
  by_cases h1 : n % 8 = 7
  · rw [dif_pos h1]
    exact sout_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc
  · rw [dif_neg h1]
    exact sout_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc

/-! ## The run's fold -/

/-- Point `n`'s share of entry `(p, q)` of its tile: the inner product of row `p` of its block of activations
    with column `q` of its unpacked, scaled block of weights (zero past the grid, where it is never used). -/
def shareAt (c : Dev nD) (n : ℕ) (p : Fin 2048) (q : Fin 512) : EReal :=
  if hb : n < cfg0.N then
    ∑ kk : Fin 1024, blkX m c ⟨n, hb⟩ (ix2 p kk)
      * (blkS m c ⟨n, hb⟩ (ix2 (⟨kk.val / 128, by have := kk.isLt; omega⟩ : Fin 8) q)
         * Scalar.sitofp (F := Ideal) .f32 (nib (blkQ m c ⟨n, hb⟩ (ix2 (⟨kk.val / 8, by have := kk.isLt; omega⟩ : Fin 128) q)) (kk.val % 8)))
  else 0

/-- The same as a function of the tile's index. -/
def share (c : Dev nD) (n : ℕ) (i : S2048x512.Idx) : EReal :=
  shareAt m c n ⟨(i 0).val, (i 0).isLt⟩ ⟨(i 1).val, (i 1).isLt⟩

theorem share_ix2 (c : Dev nD) (n : ℕ) (p : Fin 2048) (q : Fin 512) : share m c n (ix2 p q) = shareAt m c n p q := rfl

/-- The update adds the point's share, entry by entry. -/
theorem upd_share (c : Dev nD) (n : ℕ) (hb : n < cfg0.N) (acc : Vec Ideal S2048x512 .f32) (i : S2048x512.Idx) :
    upd (blkX m c ⟨n, hb⟩) (blkQ m c ⟨n, hb⟩) (blkS m c ⟨n, hb⟩) acc i = (acc i : EReal) + share m c n i := by
  obtain ⟨p, q, rfl⟩ : ∃ (p : Fin 2048) (q : Fin 512), i = ix2 p q := ⟨i 0, i 1, eq_ix2 i⟩
  rw [share_ix2]
  unfold shareAt
  rw [dif_pos hb]
  exact upd_apply (blkX m c ⟨n, hb⟩) (blkQ m c ⟨n, hb⟩) (blkS m c ⟨n, hb⟩) acc p q

/-- After `j + 1` points of a run that starts at `b` the accumulator holds the sum of their shares. -/
theorem fold_apply (c : Dev nD) (b : ℕ) (hb8 : b % 8 = 0) (j : ℕ) (hj : j ≤ 7) (h : b + j < cfg0.N) (i : S2048x512.Idx) :
    (Pipeline.accAt (fun n h => Value.scAt0_0 m c n h (VS0_0.read (Elt Ideal) VS0_0.junk)) (Value.scAt0_0 m c) b j h i : EReal)
      = 0 + ∑ s ∈ Finset.range (j + 1), share m c (b + s) i := by
  refine Pipeline.accAt_add_apply (β := EReal) (fun n h => Value.scAt0_0 m c n h (VS0_0.read (Elt Ideal) VS0_0.junk)) (Value.scAt0_0 m c)
    (fun _ => 0) (share m c) b 7 ?_ ?_ j hj h i
  · intro hb i
    rw [scAt_first m c b hb hb8, upd_share m c b hb]
    congr 1
    obtain ⟨p, q, rfl⟩ : ∃ (p : Fin 2048) (q : Fin 512), i = ix2 p q := ⟨i 0, i 1, eq_ix2 i⟩
    exact pay3_apply p q
  · intro n hn acc i h1 h2
    rw [scAt_later m c n hn (by omega), upd_share m c n hn]

/-! ## A share, and the accumulator after the eighth point, in terms of the launched arguments -/

/-- The share of a point at step `s` of its run, at the tile entry that is entry `(R, O)` of the array, is the
    `s`-th stretch's partial product there: the blocks sit in their arrays where the grid point says. -/
theorem shareAt_eq (c : Dev nD) (n : ℕ) (hb : n < cfg0.N) (s : ℕ) (hs : s < 8) (hns : n % 8 = s) (p : Fin 2048) (q : Fin 512)
    (R : Fin 4096) (O : Fin 8192) (hR : R.val = 2048 * (n / 128) + p.val) (hO : O.val = 512 * ((n / 8) % 16) + q.val) :
    shareAt m c n p q = partialDot (argX m c) (argQ m c) (argS m c) R O s := by
  unfold shareAt partialDot
  rw [dif_pos hb]
  refine Finset.sum_congr rfl fun kk _ => ?_
  have hk := kOf_val s hs kk
  have hkk := kk.isLt
  rw [blkX_apply m c ⟨n, hb⟩ p kk R (kOf s kk) hR (by rw [hk]; show _ = 1024 * (n % 8) + kk.val; rw [hns]),
    V_x_apply m c R (kOf s kk),
    blkS_apply m c ⟨n, hb⟩ (⟨kk.val / 128, by omega⟩ : Fin 8) q (grp (kOf s kk)) O
      (by rw [grp_val, hk]; show _ = 8 * (n % 8) + kk.val / 128; rw [hns]; omega) hO,
    V_s_apply m c (grp (kOf s kk)) O,
    blkQ_apply m c ⟨n, hb⟩ (⟨kk.val / 8, by omega⟩ : Fin 128) q (word (kOf s kk)) O
      (by rw [word_val, hk]; show _ = 128 * (n % 8) + kk.val / 8; rw [hns]; omega) hO,
    V_q_apply m c (word (kOf s kk)) O]
  unfold wq
  rw [show kk.val % 8 = (kOf s kk).val % 8 from by rw [hk]; omega]

/-- After the last point of a run the accumulator holds the sum of the eight partial products. -/
theorem acc_last (c : Dev nD) (t : Fin cfg0.N) (h1 : t.val % 8 = 7) (p : Fin 2048) (q : Fin 512) (R : Fin 4096) (O : Fin 8192)
    (hR : R.val = 2048 * (t.val / 128) + p.val) (hO : O.val = 512 * ((t.val / 8) % 16) + q.val) :
    ((outsAt0 m c t.val t.isLt).2 (ix2 p q) : EReal)
      = ∑ s ∈ Finset.range 8, partialDot (argX m c) (argQ m c) (argS m c) R O s := by
  have hN : t.val < 256 := lt_of_lt_of_eq t.isLt N_0
  rw [Value.soutsAt0_0_eq m c t, fold_apply m c (8 * (t.val / 8)) (by omega) (t.val % 8) (by omega) _ (ix2 p q), h1, zero_add]
  refine Finset.sum_congr rfl fun s hs => ?_
  have hs8 : s < 8 := Finset.mem_range.mp hs
  rw [share_ix2]
  exact shareAt_eq m c (8 * (t.val / 8) + s) (lt_of_lt_of_eq (by omega : 8 * (t.val / 8) + s < 256) N_0.symm) s hs8 (by omega) p q R O
    (by rw [hR]; omega) (by rw [hO]; omega)

/-! ## The tile a run writes back -/

/-- At the last point of a run the result tile is the accumulator it leaves plus the fourth operand's tile. -/
theorem outs_C (c : Dev nD) (t : Fin cfg0.N) (h0 : ¬ t.val % 8 = 0) (h1 : t.val % 8 = 7) :
    (outsAt0 m c t.val t.isLt).1 = k0_pay2 (F := Ideal) ((outsAt0 m c t.val t.isLt).2) (blkC m c t) := by
  rw [outsAt0_C m c t h0 h1]
  dsimp only
  rw [out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2,
    sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2]

/-- Entry `(p, q)` of that tile is the layer's value at the array entry it is. -/
theorem tile_apply (c : Dev nD) (t : Fin cfg0.N) (h1 : t.val % 8 = 7) (p : Fin 2048) (q : Fin 512) (R : Fin 4096) (O : Fin 8192)
    (hR : R.val = 2048 * (t.val / 128) + p.val) (hO : O.val = 512 * ((t.val / 8) % 16) + q.val) :
    ((outsAt0 m c t.val t.isLt).1 (ix2 p q) : EReal) = kerAt (argX m c) (argQ m c) (argZ m c) (argS m c) (argB m c) R O := by
  have h0 : ¬ t.val % 8 = 0 := by omega
  rw [outs_C m c t h0 h1, pay2_apply, acc_last m c t h1 p q R O hR hO, blkC_apply m c t p q R O hR hO, V_c_apply m c R O]
  rfl

theorem tile_apply' (c : Dev nD) (t : Fin cfg0.N) (h1 : t.val % 8 = 7) (i : S2048x512.Idx) (R : Fin 4096) (O : Fin 8192)
    (hR : R.val = 2048 * (t.val / 128) + (i 0).val) (hO : O.val = 512 * ((t.val / 8) % 16) + (i 1).val) :
    ((outsAt0 m c t.val t.isLt).1 i : EReal) = kerAt (argX m c) (argQ m c) (argZ m c) (argS m c) (argB m c) R O := by
  obtain ⟨p, q, rfl⟩ : ∃ (p : Fin 2048) (q : Fin 512), i = ix2 p q := ⟨i 0, i 1, eq_ix2 i⟩
  exact tile_apply m c t h1 p q R O hR hO

/-- The result window's index map: row tile `t / 128`, column tile `(t / 8) % 16`; decided once over the grid. -/
theorem idx_out : ∀ t : Fin cfg0.N, win0_4.index t (0 : Fin 2) = t.val / 128 ∧ win0_4.index t (1 : Fin 2) = (t.val / 8) % 16 :=
  (by decide +kernel : ∀ t : Fin grid0.N, _)

/-- What a run's last point writes back is its tile of `kerOut` of the launched arguments. -/
theorem flushed_eq (c : Dev nD) (t : Fin cfg0.N) (hf : (cfg0.win 4).flush t = true) :
    (dats m 0 c).flushed 4 t = ((cfg0.win 4).blk t).view.read (Elt Ideal) (kerOut (argX m c) (argQ m c) (argZ m c) (argS m c) (argB m c)) := by
  have h1 : t.val % 8 = 7 := (flush0_4 t).mp hf
  have hi := idx_out t
  rw [Value.flushed4]
  funext j
  show ((outsAt0 m c t.val t.isLt).1 j : EReal) = kerOut (argX m c) (argQ m c) (argZ m c) (argS m c) (argB m c) (((cfg0.win 4).blk t).view.emb j)
  refine tile_apply' m c t h1 j _ _ ?_ ?_
  · show win0_4.index t (0 : Fin 2) * 2048 + 1 * (j 0).val = _
    rw [hi.1]; omega
  · show win0_4.index t (1 : Fin 2) * 512 + 1 * (j 1).val = _
    rw [hi.2]; omega

/-! ## The tiles cover the array -/

theorem mem_tile (t : Fin cfg0.N) (i : S4096x8192.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v25).slice (win0_4.rect t)).set ↔ _
  rw [View.set_slice_whole, Rect.mem_set_unit]
  exact Iff.rfl

/-- Entry `(r, o)` lies in the tile written back by the last point of run `(r / 2048, o / 512)`. -/
theorem cover (i : S4096x8192.Idx) : ∃ t : Fin cfg0.N, (cfg0.win 4).flush t = true ∧ i ∈ ((cfg0.win 4).blk t).view.set := by
  have h0 : (i 0).val < 4096 := (i 0).isLt
  have h1 : (i 1).val < 8192 := (i 1).isLt
  have hN : cfg0.N = 256 := N_0
  obtain ⟨t, ht⟩ : ∃ t : Fin cfg0.N, t.val = 128 * ((i 0).val / 2048) + 8 * ((i 1).val / 512) + 7 :=
    ⟨⟨128 * ((i 0).val / 2048) + 8 * ((i 1).val / 512) + 7, by rw [hN]; omega⟩, rfl⟩
  have hi := idx_out t
  refine ⟨t, (flush0_4 t).mpr (by rw [ht]; omega), ?_⟩
  rw [mem_tile]
  intro a
  match a with
  | ⟨0, _⟩ => show win0_4.index t (0 : Fin 2) * 2048 ≤ (i 0).val ∧ (i 0).val < win0_4.index t (0 : Fin 2) * 2048 + 2048; rw [hi.1, ht]; omega
  | ⟨1, _⟩ => show win0_4.index t (1 : Fin 2) * 512 ≤ (i 1).val ∧ (i 1).val < win0_4.index t (1 : Fin 2) * 512 + 512; rw [hi.2, ht]; omega

/-! ## The array after the run, and the run -/

theorem final (c : Dev nD) : (dats m 0 c).arrAt 4 cfg0.N = kerOut (argX m c) (argQ m c) (argZ m c) (argS m c) (argB m c) :=
  (dats m 0 c).arrAt_eq_of_cover 4 (kerOut (argX m c) (argQ m c) (argZ m c) (argS m c) (argB m c)) (fun t hf => flushed_eq m c t hf) cover

/-- Every weakly fair execution of the kernel's program terminates with the result array at `kerOut` of the launched
    arguments, and the arguments unchanged. -/
theorem run : θ_run defs (onTc (τ := τ) (main (F := Ideal))) ⟨m, fun _ => 0, ρ⟩ fun r => ∀ c : Dev nD,
      r.2.mem ((c : Thread nD τ).loc main_v25) = kerOut (argX m c) (argQ m c) (argZ m c) (argS m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Bridge

end
-- ==== Proof.lean ====
/-
  The certificate of a 4-bit grouped quantized linear layer `y = x · dequant(qweight, qzeros, scales) + bias`
  (tokens 4096, features 8192 → 8192, groups of 128 rows).

  The reference unpacks the weights and the zero points, forms `W[k,o] = sc[k/128,o] · (w[k,o] − z[k/128,o])`, and
  computes `x · W + bias`.  The kernel never forms `W`: its grid walks 2 × 16 result tiles and, for each, eight
  stretches of 1024 rows of the contraction; a stretch unpacks its weights, scales them, and adds
  `x_blk · (sc · w)` into an accumulator, and the last stretch adds a fourth operand computed in front of the
  kernel, `bias[o] − Σ_g (Σ_{j<128} x[t,128g+j]) · (sc[g,o] · z[g,o])`.  Over the extended reals a change of float
  format is the identity, so the two programs compute `kerOut` and `refOut` of Proof/QuantSpec.lean, which agree
  wherever the activations, the scales and the bias are real numbers — distributivity and a regrouping of finite
  sums — and the precondition says exactly that.  The idealization rewrote no operation, so `preserves` is `True`.
-/
import proofs.«421148_j19456201851575_3_alg».proof.Defs
import proofs.«421148_j19456201851575_3_alg».proof.Proof.Gen.Kernel
import proofs.«421148_j19456201851575_3_alg».proof.Proof.Gen.Kernel.Skeleton
import proofs.«421148_j19456201851575_3_alg».proof.Proof.Gen.Kernel.Launch
import proofs.«421148_j19456201851575_3_alg».proof.Proof.Gen.Kernel.Points
import proofs.«421148_j19456201851575_3_alg».proof.Proof.Gen.Kernel.Frame
import proofs.«421148_j19456201851575_3_alg».proof.Proof.Gen.KernelIdeal
import proofs.«421148_j19456201851575_3_alg».proof.Proof.Gen.KernelIdeal.Skeleton
import proofs.«421148_j19456201851575_3_alg».proof.Proof.Gen.KernelIdeal.Launch
import proofs.«421148_j19456201851575_3_alg».proof.Proof.Gen.KernelIdeal.Points
import proofs.«421148_j19456201851575_3_alg».proof.Proof.Gen.KernelIdeal.Frame
import proofs.«421148_j19456201851575_3_alg».proof.Proof.Gen.ReferenceIdeal
import proofs.«421148_j19456201851575_3_alg».proof.Proof.Gen.Pre_finite_inputs
import proofs.«421148_j19456201851575_3_alg».proof.Proof.Gen.KernelIdeal.Value
import proofs.«421148_j19456201851575_3_alg».proof.Proof.Gen.ReferenceIdeal.Run
import proofs.«421148_j19456201851575_3_alg».proof.Proof.Gen.ReferenceIdeal.Read
import proofs.«421148_j19456201851575_3_alg».proof.Proof.QuantSpec
import proofs.«421148_j19456201851575_3_alg».proof.Proof.Finite
import proofs.«421148_j19456201851575_3_alg».proof.Proof.RefSpec
import proofs.«421148_j19456201851575_3_alg».proof.Proof.KerValue
import Idealize.ShloMosaic.Adequacy
import Idealize.ShloMosaic.Init

noncomputable section

namespace Cert.Proof

open Idealize.ShloMosaic Idealize.ShloMosaic.TcCoe Idealize.SL.Sem Cert.QuantSpec

/-- The word-level kernel runs and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten for the reading over the extended reals. -/
theorem preserves : Cert.preserves_Kernel_KernelIdeal := trivial

/-- From arguments that agree, the kernel ends at `kerOut` and the reference at `refOut` of them; the precondition
    makes the activations, the scales and the bias real, and there the two are one function. -/
theorem algebraic : Cert.algebraic_KernelIdeal_ReferenceIdeal := by
  intro m ρ m' ρ' hpre hagree
  refine ⟨fun c => kerOut (Cert.KernelIdeal.Bridge.argX m c) (Cert.KernelIdeal.Bridge.argQ m c) (Cert.KernelIdeal.Bridge.argZ m c)
    (Cert.KernelIdeal.Bridge.argS m c) (Cert.KernelIdeal.Bridge.argB m c), Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hs, hb⟩ := Cert.FiniteInputs.real_of_pre _ _ _ _ _ (hpre c)
  rw [Cert.ReferenceIdeal.Read.val_main_v35_eq, (hagree c).1, (hagree c).2.1, (hagree c).2.2.1, (hagree c).2.2.2.1, (hagree c).2.2.2.2]
  exact (Cert.ReferenceIdeal.Bridge.val_eq_refOut _ _ _ _ _).trans (kerOut_eq_refOut _ _ _ _ _ hx hs hb).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
